-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x394 : Shape := ⟨2, ![50000, 394]⟩
abbrev S200000 : Shape := ⟨1, ![200000]⟩
abbrev S788x192 : Shape := ⟨2, ![788, 192]⟩
abbrev S192 : Shape := ⟨1, ![192]⟩
abbrev S192x128 : Shape := ⟨2, ![192, 128]⟩
abbrev S128 : Shape := ⟨1, ![128]⟩
abbrev S128x192 : Shape := ⟨2, ![128, 192]⟩
abbrev S192x788 : Shape := ⟨2, ![192, 788]⟩
abbrev S788 : Shape := ⟨1, ![788]⟩
abbrev S_ : Shape := ⟨0, ![]⟩

class Facts : Prop where
  bcast_S_S50000x394 : S_.BroadcastsInDim S50000x394 (![] : Fin 0 → Fin S50000x394.rank)
  reducesTo_S50000x394_S_d0_1 : S50000x394.ReducesTo [0, 1] S_
  h_S_ : 0 < S_.numel
  bcast_S_S788x192 : S_.BroadcastsInDim S788x192 (![] : Fin 0 → Fin S788x192.rank)
  reducesTo_S788x192_S_d0_1 : S788x192.ReducesTo [0, 1] S_
  bcast_S_S192 : S_.BroadcastsInDim S192 (![] : Fin 0 → Fin S192.rank)
  reducesTo_S192_S_d0 : S192.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x192 : S_.BroadcastsInDim S128x192 (![] : Fin 0 → Fin S128x192.rank)
  reducesTo_S128x192_S_d0_1 : S128x192.ReducesTo [0, 1] S_
  bcast_S_S192x788 : S_.BroadcastsInDim S192x788 (![] : Fin 0 → Fin S192x788.rank)
  reducesTo_S192x788_S_d0_1 : S192x788.ReducesTo [0, 1] S_
  bcast_S_S788 : S_.BroadcastsInDim S788 (![] : Fin 0 → Fin S788.rank)
  reducesTo_S788_S_d0 : S788.ReducesTo [0] S_

variable [Facts]

def fn_part2 {F : FTy → Type} [FloatOps F] (main_arg9 : FVec F S192x788 .f32) (main_arg10 : FVec F S788 .f32) (main_v33 : IVec S_ 1) : IVec S_ 1 :=
  let main_v34 : FVec F S192x788 .f32 := Host.absf main_arg9
  let main_cst_12 : FVec F S_ .f32 := constant S_ .f32 0x7F800000#32
  let main_v35 : FVec F S192x788 .f32 := broadcastInDim S192x788 ![] bcast_S_S192x788 main_cst_12
  let main_v36 : IVec S192x788 1 := cmpf .olt main_v34 main_v35
  let main_c_13 : IVec S_ 1 := constantI S_ 1 1#1
  let main_v37 : IVec S_ 1 := (fun x v => Host.reduce IntOp.andi x v reducesTo_S192x788_S_d0_1 h_S_) main_v36 main_c_13
  let main_v38 : IVec S_ 1 := andi main_v33 main_v37
  let main_v39 : FVec F S788 .f32 := Host.absf main_arg10
  let main_cst_14 : FVec F S_ .f32 := constant S_ .f32 0x7F800000#32
  let main_v40 : FVec F S788 .f32 := broadcastInDim S788 ![] bcast_S_S788 main_cst_14
  let main_v41 : IVec S788 1 := cmpf .olt main_v39 main_v40
  let main_c_15 : IVec S_ 1 := constantI S_ 1 1#1
  let main_v42 : IVec S_ 1 := (fun x v => Host.reduce IntOp.andi x v reducesTo_S788_S_d0 h_S_) main_v41 main_c_15
  let main_v43 : IVec S_ 1 := andi main_v38 main_v42
  main_v43

def fn_part1 {F : FTy → Type} [FloatOps F] (main_arg6 : FVec F S128 .f32) (main_arg7 : FVec F S128x192 .f32) (main_arg8 : FVec F S192 .f32) (main_arg9 : FVec F S192x788 .f32) (main_arg10 : FVec F S788 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x192 .f32 := Host.absf main_arg7
  let main_cst_8 : FVec F S_ .f32 := constant S_ .f32 0x7F800000#32
  let main_v25 : FVec F S128x192 .f32 := broadcastInDim S128x192 ![] bcast_S_S128x192 main_cst_8
  let main_v26 : IVec S128x192 1 := cmpf .olt main_v24 main_v25
  let main_c_9 : IVec S_ 1 := constantI S_ 1 1#1
  let main_v27 : IVec S_ 1 := (fun x v => Host.reduce IntOp.andi x v reducesTo_S128x192_S_d0_1 h_S_) main_v26 main_c_9
  let main_v28 : IVec S_ 1 := andi main_v23 main_v27
  let main_v29 : FVec F S192 .f32 := Host.absf main_arg8
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg9 main_arg10 main_v33

def fn {F : FTy → Type} [FloatOps F] (main_arg0 : FVec F S50000x394 .f32) (main_arg1 : IVec S200000 32) (main_arg2 : IVec S200000 32) (main_arg3 : FVec F S788x192 .f32) (main_arg4 : FVec F S192 .f32) (main_arg5 : FVec F S192x128 .f32) (main_arg6 : FVec F S128 .f32) (main_arg7 : FVec F S128x192 .f32) (main_arg8 : FVec F S192 .f32) (main_arg9 : FVec F S192x788 .f32) (main_arg10 : FVec F S788 .f32) : IVec S_ 1 :=
  let main_v0 : FVec F S50000x394 .f32 := Host.absf main_arg0
  let main_cst : FVec F S_ .f32 := constant S_ .f32 0x7F800000#32
  let main_v1 : FVec F S50000x394 .f32 := broadcastInDim S50000x394 ![] bcast_S_S50000x394 main_cst
  let main_v2 : IVec S50000x394 1 := cmpf .olt main_v0 main_v1
  let main_c : IVec S_ 1 := constantI S_ 1 1#1
  let main_v3 : IVec S_ 1 := (fun x v => Host.reduce IntOp.andi x v reducesTo_S50000x394_S_d0_1 h_S_) main_v2 main_c
  let main_v4 : FVec F S788x192 .f32 := Host.absf main_arg3
  let main_cst_0 : FVec F S_ .f32 := constant S_ .f32 0x7F800000#32
  let main_v5 : FVec F S788x192 .f32 := broadcastInDim S788x192 ![] bcast_S_S788x192 main_cst_0
  let main_v6 : IVec S788x192 1 := cmpf .olt main_v4 main_v5
  let main_c_1 : IVec S_ 1 := constantI S_ 1 1#1
  let main_v7 : IVec S_ 1 := (fun x v => Host.reduce IntOp.andi x v reducesTo_S788x192_S_d0_1 h_S_) main_v6 main_c_1
  let main_v8 : IVec S_ 1 := andi main_v3 main_v7
  let main_v9 : FVec F S192 .f32 := Host.absf main_arg4
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S192x128 .f32 := Host.absf main_arg5
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg6 main_arg7 main_arg8 main_arg9 main_arg10 main_v13 main_v16
-- ==== Kernel.lean ====
abbrev S50000x394 : Shape := ⟨2, ![50000, 394]⟩
abbrev S200000 : Shape := ⟨1, ![200000]⟩
abbrev S788x192 : Shape := ⟨2, ![788, 192]⟩
abbrev S192 : Shape := ⟨1, ![192]⟩
abbrev S192x128 : Shape := ⟨2, ![192, 128]⟩
abbrev S128 : Shape := ⟨1, ![128]⟩
abbrev S128x192 : Shape := ⟨2, ![128, 192]⟩
abbrev S192x788 : Shape := ⟨2, ![192, 788]⟩
abbrev S788 : Shape := ⟨1, ![788]⟩
abbrev S_ : Shape := ⟨0, ![]⟩
abbrev S50000 : Shape := ⟨1, ![50000]⟩
abbrev S200000x1 : Shape := ⟨2, ![200000, 1]⟩
abbrev S50000x1 : Shape := ⟨2, ![50000, 1]⟩
abbrev S200000x394 : Shape := ⟨2, ![200000, 394]⟩
abbrev S1 : Shape := ⟨1, ![1]⟩
abbrev S50000x788 : Shape := ⟨2, ![50000, 788]⟩
abbrev S1x192 : Shape := ⟨2, ![1, 192]⟩
abbrev S1x128 : Shape := ⟨2, ![1, 128]⟩
abbrev S1x788 : Shape := ⟨2, ![1, 788]⟩
abbrev S50000x128 : Shape := ⟨2, ![50000, 128]⟩
abbrev S1000x788 : Shape := ⟨2, ![1000, 788]⟩
abbrev S1000x128 : Shape := ⟨2, ![1000, 128]⟩
abbrev S1000x192 : Shape := ⟨2, ![1000, 192]⟩

abbrev nBuf : Space → Nat
  | .hbm => 85
  | .vmem => 14
  | .smem => 0
  | _ => 0

abbrev bufTy : (tb : Table) → Fin (tcTables nBuf tb) → BufTy
  | .hbm, ⟨0, _⟩ => ⟨S50000x394, .f32⟩
  | .hbm, ⟨1, _⟩ => ⟨S200000, .i32⟩
  | .hbm, ⟨2, _⟩ => ⟨S200000, .i32⟩
  | .hbm, ⟨3, _⟩ => ⟨S788x192, .f32⟩
  | .hbm, ⟨4, _⟩ => ⟨S192, .f32⟩
  | .hbm, ⟨5, _⟩ => ⟨S192x128, .f32⟩
  | .hbm, ⟨6, _⟩ => ⟨S128, .f32⟩
  | .hbm, ⟨7, _⟩ => ⟨S128x192, .f32⟩
  | .hbm, ⟨8, _⟩ => ⟨S192, .f32⟩
  | .hbm, ⟨9, _⟩ => ⟨S192x788, .f32⟩
  | .hbm, ⟨10, _⟩ => ⟨S788, .f32⟩
  | .hbm, ⟨11, _⟩ => ⟨S_, .f32⟩
  | .hbm, ⟨12, _⟩ => ⟨S200000, .f32⟩
  | .hbm, ⟨13, _⟩ => ⟨S_, .f32⟩
  | .hbm, ⟨14, _⟩ => ⟨S50000, .f32⟩
  | .hbm, ⟨15, _⟩ => ⟨S200000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x394, .f32⟩
  | .hbm, ⟨33, _⟩ => ⟨S_, .f32⟩
  | .hbm, ⟨34, _⟩ => ⟨S50000x394, .f32⟩
  | .hbm, ⟨35, _⟩ => ⟨S200000x1, .i32⟩
  | .hbm, ⟨36, _⟩ => ⟨S50000x394, .f32⟩
  | .hbm, ⟨37, _⟩ => ⟨S50000x394, .f32⟩
  | .hbm, ⟨38, _⟩ => ⟨S50000x394, .f32⟩
  | .hbm, ⟨39, _⟩ => ⟨S_, .i32⟩
  | .hbm, ⟨40, _⟩ => ⟨S1, .i32⟩
  | .hbm, ⟨41, _⟩ => ⟨S_, .f32⟩
  | .hbm, ⟨42, _⟩ => ⟨S50000, .f32⟩
  | .hbm, ⟨43, _⟩ => ⟨S50000x394, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x394, .f32⟩
  | .hbm, ⟨53, _⟩ => ⟨S_, .f32⟩
  | .hbm, ⟨54, _⟩ => ⟨S50000x394, .f32⟩
  | .hbm, ⟨55, _⟩ => ⟨S200000x1, .i32⟩
  | .hbm, ⟨56, _⟩ => ⟨S50000x394, .f32⟩
  | .hbm, ⟨57, _⟩ => ⟨S50000x394, .f32⟩
  | .hbm, ⟨58, _⟩ => ⟨S50000x394, .f32⟩
  | .hbm, ⟨59, _⟩ => ⟨S_, .i32⟩
  | .hbm, ⟨60, _⟩ => ⟨S1, .i32⟩
  | .hbm, ⟨61, _⟩ => ⟨S_, .f32⟩
  | .hbm, ⟨62, _⟩ => ⟨S50000, .f32⟩
  | .hbm, ⟨63, _⟩ => ⟨S50000x394, .f32⟩
  | .hbm, ⟨64, _⟩ => ⟨S50000x788, .f32⟩
  | .hbm, ⟨65, _⟩ => ⟨S_, .i32⟩
  | .hbm, ⟨66, _⟩ => ⟨S1, .i32⟩
  | .hbm, ⟨67, _⟩ => ⟨S_, .f32⟩
  | .hbm, ⟨68, _⟩ => ⟨S50000, .f32⟩
  | .hbm, ⟨69, _⟩ => ⟨S50000x788, .f32⟩
  | .hbm, ⟨70, _⟩ => ⟨S_, .i32⟩
  | .hbm, ⟨71, _⟩ => ⟨S1, .i32⟩
  | .hbm, ⟨72, _⟩ => ⟨S_, .f32⟩
  | .hbm, ⟨73, _⟩ => ⟨S50000, .f32⟩
  | .hbm, ⟨74, _⟩ => ⟨S50000x788, .f32⟩
  | .hbm, ⟨75, _⟩ => ⟨S788x192, .bf16⟩
  | .hbm, ⟨76, _⟩ => ⟨S192x128, .bf16⟩
  | .hbm, ⟨77, _⟩ => ⟨S128x192, .bf16⟩
  | .hbm, ⟨78, _⟩ => ⟨S192x788, .bf16⟩
  | .hbm, ⟨79, _⟩ => ⟨S1x192, .f32⟩
  | .hbm, ⟨80, _⟩ => ⟨S1x128, .f32⟩
  | .hbm, ⟨81, _⟩ => ⟨S1x192, .f32⟩
  | .hbm, ⟨82, _⟩ => ⟨S1x788, .f32⟩
  | .hbm, ⟨83, _⟩ => ⟨S50000x128, .f32⟩
  | .hbm, ⟨84, _⟩ => ⟨S50000x788, .f32⟩
  | .local _ .vmem, ⟨0, _⟩ => ⟨S1000x788, .f32⟩
  | .local _ .vmem, ⟨1, _⟩ => ⟨S1000x788, .f32⟩
  | .local _ .vmem, ⟨2, _⟩ => ⟨S788x192, .bf16⟩
  | .local _ .vmem, ⟨3, _⟩ => ⟨S1x192, .f32⟩
  | .local _ .vmem, ⟨4, _⟩ => ⟨S192x128, .bf16⟩
  | .local _ .vmem, ⟨5, _⟩ => ⟨S1x128, .f32⟩
  | .local _ .vmem, ⟨6, _⟩ => ⟨S128x192, .bf16⟩
  | .local _ .vmem, ⟨7, _⟩ => ⟨S1x192, .f32⟩
  | .local _ .vmem, ⟨8, _⟩ => ⟨S192x788, .bf16⟩
  | .local _ .vmem, ⟨9, _⟩ => ⟨S1x788, .f32⟩
  | .local _ .vmem, ⟨10, _⟩ => ⟨S1000x128, .f32⟩
  | .local _ .vmem, ⟨11, _⟩ => ⟨S1000x128, .f32⟩
  | .local _ .vmem, ⟨12, _⟩ => ⟨S1000x788, .f32⟩
  | .local _ .vmem, ⟨13, _⟩ => ⟨S1000x788, .f32⟩
  | _, _ => ⟨S50000x394, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_c_14 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x788 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S788x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x788 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x788 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x788 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S_S50000x394 : S_.BroadcastsInDim S50000x394 (![] : Fin 0 → Fin S50000x394.rank)
  bcast_S50000x1_S50000x394_0_1 : S50000x1.BroadcastsInDim S50000x394 (![0, 1] : Fin 2 → Fin S50000x394.rank)
  bcast_S_S1 : S_.BroadcastsInDim S1 (![] : Fin 0 → Fin S1.rank)
  concatenates_S50000x394_S50000x394_S50000x788_d1 : Shape.Concatenates [S50000x394, S50000x394] S50000x788 1
  bitsLt_bf16_f32 : FTy.bits .bf16 < FTy.bits .f32
  shapeCasts_S192_S1x192 : S192.ShapeCasts S1x192
  shapeCasts_S128_S1x128 : S128.ShapeCasts S1x128
  shapeCasts_S788_S1x788 : S788.ShapeCasts S1x788
  inb_S1000x788_S1000x788_0_0 : ∀ a, (![0, 0] : Fin 2 → Nat) a + S1000x788.size a ≤ S1000x788.size a
  h_S1000x788 : 0 < S1000x788.numel
  shapeCasts_S1000x788_S1000x788 : S1000x788.ShapeCasts S1000x788
  inb_S788x192_S788x192_0_0 : ∀ a, (![0, 0] : Fin 2 → Nat) a + S788x192.size a ≤ S788x192.size a
  h_S788x192 : 0 < S788x192.numel
  shapeCasts_S788x192_S788x192 : S788x192.ShapeCasts S788x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1000x192 : S1x192.Broadcasts S1000x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S192x788_S192x788_0_0 : ∀ a, (![0, 0] : Fin 2 → Nat) a + S192x788.size a ≤ S192x788.size a
  h_S192x788 : 0 < S192x788.numel
  shapeCasts_S192x788_S192x788 : S192x788.ShapeCasts S192x788
  inb_S1x788_S1x788_0_0 : ∀ a, (![0, 0] : Fin 2 → Nat) a + S1x788.size a ≤ S1x788.size a
  h_S1x788 : 0 < S1x788.numel
  shapeCasts_S1x788_S1x788 : S1x788.ShapeCasts S1x788
  broadcasts_S1x788_S1000x788 : S1x788.Broadcasts S1000x788
  scatter_S50000_S200000x1_S200000_n_0_0_1_wf : ScatterDims.WF S50000 S200000x1 S200000 [] [0] [0] 1
  gather_S50000x394_S200000x1_S200000x394_1_0_n_n_0_1_1394_wf : GatherDims.WF S50000x394 S200000x1 S200000x394 [1] [0] [] [0] [] 1 ![1, 394]
  scatter_S50000x394_S200000x1_S200000x394_1_0_0_1_wf : ScatterDims.WF S50000x394 S200000x1 S200000x394 [1] [0] [0] 1
  scatter_S50000x394_S1_S50000_0_1_1_0_wf : ScatterDims.WF S50000x394 S1 S50000 [0] [1] [1] 0
  scatter_S50000x788_S1_S50000_0_1_1_0_wf : ScatterDims.WF S50000x788 S1 S50000 [0] [1] [1] 0
  dot_S1000x788_S788x192_S1000x192_1_0_0_1_n_n_wf : DotDims.WF S1000x788 S788x192 S1000x192 [1] [0] [0] [1] [] []
  dot_S1000x192_S192x128_S1000x128_1_0_0_1_n_n_wf : DotDims.WF S1000x192 S192x128 S1000x128 [1] [0] [0] [1] [] []
  dot_S1000x128_S128x192_S1000x192_1_0_0_1_n_n_wf : DotDims.WF S1000x128 S128x192 S1000x192 [1] [0] [0] [1] [] []
  dot_S1000x192_S192x788_S1000x788_1_0_0_1_n_n_wf : DotDims.WF S1000x192 S192x788 S1000x788 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x788.size a ≤ S50000x788.size a
  hwx0_0 : ∀ i : grid0.Coords, EltTy.bits .f32 = 32 ∨ (Rect.block (s := S50000x788) S1000x788.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S788x192.size a ≤ S788x192.size a
  hwx0_1 : ∀ i : grid0.Coords, EltTy.bits .bf16 = 32 ∨ (Rect.block (s := S788x192) S788x192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .bf16 = 32 ∨ (Rect.block (s := S192x128) S192x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x192.size a ≤ S128x192.size a
  hwx0_5 : ∀ i : grid0.Coords, EltTy.bits .bf16 = 32 ∨ (Rect.block (s := S128x192) S128x192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x192.size a ≤ S1x192.size a
  hwx0_6 : ∀ i : grid0.Coords, EltTy.bits .f32 = 32 ∨ (Rect.block (s := S1x192) S1x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x788.size a ≤ S192x788.size a
  hwx0_7 : ∀ i : grid0.Coords, EltTy.bits .bf16 = 32 ∨ (Rect.block (s := S192x788) S192x788.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x788.size a ≤ S1x788.size a
  hwx0_8 : ∀ i : grid0.Coords, EltTy.bits .f32 = 32 ∨ (Rect.block (s := S1x788) S1x788.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S50000x128.size a
  hwx0_9 : ∀ i : grid0.Coords, EltTy.bits .f32 = 32 ∨ (Rect.block (s := S50000x128) S1000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x788.size a ≤ S50000x788.size a
  hwx0_10 : ∀ i : grid0.Coords, EltTy.bits .f32 = 32 ∨ (Rect.block (s := S50000x788) S1000x788.size (cc0_transform_10 i) (hinb0_10 i)).WholeWords (EltTy.packing .f32)

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x394_S200000x1_S200000x394_1_0_n_n_0_1_1394 : GatherDims S50000x394 S200000x1 S200000x394 where
  offsetDims := [1]
  collapsedSliceDims := [0]
  operandBatchingDims := []
  startIndicesBatchingDims := []
  startIndexMap := [0]
  indexVectorDim := 1
  sliceSizes := ![1, 394]
  wf := gather_S50000x394_S200000x1_S200000x394_1_0_n_n_0_1_1394_wf
def scatter_S50000x394_S200000x1_S200000x394_1_0_0_1 : ScatterDims S50000x394 S200000x1 S200000x394 where
  updateWindowDims := [1]
  insertedWindowDims := [0]
  scatterDimsToOperandDims := [0]
  indexVectorDim := 1
  wf := scatter_S50000x394_S200000x1_S200000x394_1_0_0_1_wf
def scatter_S50000x394_S1_S50000_0_1_1_0 : ScatterDims S50000x394 S1 S50000 where
  updateWindowDims := [0]
  insertedWindowDims := [1]
  scatterDimsToOperandDims := [1]
  indexVectorDim := 0
  wf := scatter_S50000x394_S1_S50000_0_1_1_0_wf
def scatter_S50000x788_S1_S50000_0_1_1_0 : ScatterDims S50000x788 S1 S50000 where
  updateWindowDims := [0]
  insertedWindowDims := [1]
  scatterDimsToOperandDims := [1]
  indexVectorDim := 0
  wf := scatter_S50000x788_S1_S50000_0_1_1_0_wf
def dot_S1000x788_S788x192_S1000x192_1_0_0_1_n_n : DotDims S1000x788 S788x192 S1000x192 where
  lhsContracting := [1]
  rhsContracting := [0]
  lhsNonContracting := [0]
  rhsNonContracting := [1]
  lhsBatch := []
  rhsBatch := []
  wf := dot_S1000x788_S788x192_S1000x192_1_0_0_1_n_n_wf
def dot_S1000x192_S192x128_S1000x128_1_0_0_1_n_n : DotDims S1000x192 S192x128 S1000x128 where
  lhsContracting := [1]
  rhsContracting := [0]
  lhsNonContracting := [0]
  rhsNonContracting := [1]
  lhsBatch := []
  rhsBatch := []
  wf := dot_S1000x192_S192x128_S1000x128_1_0_0_1_n_n_wf
def dot_S1000x128_S128x192_S1000x192_1_0_0_1_n_n : DotDims S1000x128 S128x192 S1000x192 where
  lhsContracting := [1]
  rhsContracting := [0]
  lhsNonContracting := [0]
  rhsNonContracting := [1]
  lhsBatch := []
  rhsBatch := []
  wf := dot_S1000x128_S128x192_S1000x192_1_0_0_1_n_n_wf
def dot_S1000x192_S192x788_S1000x788_1_0_0_1_n_n : DotDims S1000x192 S192x788 S1000x788 where
  lhsContracting := [1]
  rhsContracting := [0]
  lhsNonContracting := [0]
  rhsNonContracting := [1]
  lhsBatch := []
  rhsBatch := []
  wf := dot_S1000x192_S192x788_S1000x788_1_0_0_1_n_n_wf

abbrev win0_0 : Pipeline.Window sig grid0 :=
  Pipeline.Window.ofSpec (Memref.whole main_v45) S1000x788.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S788x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S128x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v52) S1x192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S192x788.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53) S1x788.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54_0) S1000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v54_1) S1000x788.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x394 : Shape := ⟨2, ![50000, 394]⟩
abbrev S200000 : Shape := ⟨1, ![200000]⟩
abbrev S788x192 : Shape := ⟨2, ![788, 192]⟩
abbrev S192 : Shape := ⟨1, ![192]⟩
abbrev S192x128 : Shape := ⟨2, ![192, 128]⟩
abbrev S128 : Shape := ⟨1, ![128]⟩
abbrev S128x192 : Shape := ⟨2, ![128, 192]⟩
abbrev S192x788 : Shape := ⟨2, ![192, 788]⟩
abbrev S788 : Shape := ⟨1, ![788]⟩
abbrev S_ : Shape := ⟨0, ![]⟩
abbrev S50000 : Shape := ⟨1, ![50000]⟩
abbrev S200000x1 : Shape := ⟨2, ![200000, 1]⟩
abbrev S50000x1 : Shape := ⟨2, ![50000, 1]⟩
abbrev S200000x394 : Shape := ⟨2, ![200000, 394]⟩
abbrev S1 : Shape := ⟨1, ![1]⟩
abbrev S50000x788 : Shape := ⟨2, ![50000, 788]⟩
abbrev S50000x192 : Shape := ⟨2, ![50000, 192]⟩
abbrev S1x192 : Shape := ⟨2, ![1, 192]⟩
abbrev S50000x128 : Shape := ⟨2, ![50000, 128]⟩
abbrev S1x128 : Shape := ⟨2, ![1, 128]⟩
abbrev S1x788 : Shape := ⟨2, ![1, 788]⟩

abbrev nBuf : Space → Nat
  | .hbm => 97
  | .vmem => 0
  | .smem => 0
  | _ => 0

abbrev bufTy : (tb : Table) → Fin (tcTables nBuf tb) → BufTy
  | .hbm, ⟨0, _⟩ => ⟨S50000x394, .f32⟩
  | .hbm, ⟨1, _⟩ => ⟨S200000, .i32⟩
  | .hbm, ⟨2, _⟩ => ⟨S200000, .i32⟩
  | .hbm, ⟨3, _⟩ => ⟨S788x192, .f32⟩
  | .hbm, ⟨4, _⟩ => ⟨S192, .f32⟩
  | .hbm, ⟨5, _⟩ => ⟨S192x128, .f32⟩
  | .hbm, ⟨6, _⟩ => ⟨S128, .f32⟩
  | .hbm, ⟨7, _⟩ => ⟨S128x192, .f32⟩
  | .hbm, ⟨8, _⟩ => ⟨S192, .f32⟩
  | .hbm, ⟨9, _⟩ => ⟨S192x788, .f32⟩
  | .hbm, ⟨10, _⟩ => ⟨S788, .f32⟩
  | .hbm, ⟨11, _⟩ => ⟨S_, .f32⟩
  | .hbm, ⟨12, _⟩ => ⟨S200000, .f32⟩
  | .hbm, ⟨13, _⟩ => ⟨S_, .f32⟩
  | .hbm, ⟨14, _⟩ => ⟨S50000, .f32⟩
  | .hbm, ⟨15, _⟩ => ⟨S200000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x394, .f32⟩
  | .hbm, ⟨33, _⟩ => ⟨S_, .f32⟩
  | .hbm, ⟨34, _⟩ => ⟨S50000x394, .f32⟩
  | .hbm, ⟨35, _⟩ => ⟨S200000x1, .i32⟩
  | .hbm, ⟨36, _⟩ => ⟨S50000x394, .f32⟩
  | .hbm, ⟨37, _⟩ => ⟨S50000x394, .f32⟩
  | .hbm, ⟨38, _⟩ => ⟨S50000x394, .f32⟩
  | .hbm, ⟨39, _⟩ => ⟨S_, .i32⟩
  | .hbm, ⟨40, _⟩ => ⟨S1, .i32⟩
  | .hbm, ⟨41, _⟩ => ⟨S_, .f32⟩
  | .hbm, ⟨42, _⟩ => ⟨S50000, .f32⟩
  | .hbm, ⟨43, _⟩ => ⟨S50000x394, .f32⟩
  | .hbm, ⟨44, _⟩ => ⟨S_, .i32⟩
  | .hbm, ⟨45, _⟩ => ⟨S200000, .i32⟩
  | .hbm, ⟨46, _⟩ => ⟨S200000, .i1⟩
  | .hbm, ⟨47, _⟩ => ⟨S_, .i32⟩
  | .hbm, ⟨48, _⟩ => ⟨S200000, .i32⟩
  | .hbm, ⟨49, _⟩ => ⟨S200000, .i32⟩
  | .hbm, ⟨50, _⟩ => ⟨S200000, .i32⟩
  | .hbm, ⟨51, _⟩ => ⟨S200000x1, .i32⟩
  | .hbm, ⟨52, _⟩ => ⟨S200000x394, .f32⟩
  | .hbm, ⟨53, _⟩ => ⟨S_, .f32⟩
  | .hbm, ⟨54, _⟩ => ⟨S50000x394, .f32⟩
  | .hbm, ⟨55, _⟩ => ⟨S200000x1, .i32⟩
  | .hbm, ⟨56, _⟩ => ⟨S50000x394, .f32⟩
  | .hbm, ⟨57, _⟩ => ⟨S50000x394, .f32⟩
  | .hbm, ⟨58, _⟩ => ⟨S50000x394, .f32⟩
  | .hbm, ⟨59, _⟩ => ⟨S_, .i32⟩
  | .hbm, ⟨60, _⟩ => ⟨S1, .i32⟩
  | .hbm, ⟨61, _⟩ => ⟨S_, .f32⟩
  | .hbm, ⟨62, _⟩ => ⟨S50000, .f32⟩
  | .hbm, ⟨63, _⟩ => ⟨S50000x394, .f32⟩
  | .hbm, ⟨64, _⟩ => ⟨S50000x788, .f32⟩
  | .hbm, ⟨65, _⟩ => ⟨S_, .i32⟩
  | .hbm, ⟨66, _⟩ => ⟨S1, .i32⟩
  | .hbm, ⟨67, _⟩ => ⟨S_, .f32⟩
  | .hbm, ⟨68, _⟩ => ⟨S50000, .f32⟩
  | .hbm, ⟨69, _⟩ => ⟨S50000x788, .f32⟩
  | .hbm, ⟨70, _⟩ => ⟨S_, .i32⟩
  | .hbm, ⟨71, _⟩ => ⟨S1, .i32⟩
  | .hbm, ⟨72, _⟩ => ⟨S_, .f32⟩
  | .hbm, ⟨73, _⟩ => ⟨S50000, .f32⟩
  | .hbm, ⟨74, _⟩ => ⟨S50000x788, .f32⟩
  | .hbm, ⟨75, _⟩ => ⟨S50000x192, .f32⟩
  | .hbm, ⟨76, _⟩ => ⟨S1x192, .f32⟩
  | .hbm, ⟨77, _⟩ => ⟨S50000x192, .f32⟩
  | .hbm, ⟨78, _⟩ => ⟨S50000x192, .f32⟩
  | .hbm, ⟨79, _⟩ => ⟨S_, .f32⟩
  | .hbm, ⟨80, _⟩ => ⟨S50000x192, .f32⟩
  | .hbm, ⟨81, _⟩ => ⟨S50000x192, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S50000x192, .f32⟩
  | .hbm, ⟨87, _⟩ => ⟨S1x192, .f32⟩
  | .hbm, ⟨88, _⟩ => ⟨S50000x192, .f32⟩
  | .hbm, ⟨89, _⟩ => ⟨S50000x192, .f32⟩
  | .hbm, ⟨90, _⟩ => ⟨S_, .f32⟩
  | .hbm, ⟨91, _⟩ => ⟨S50000x192, .f32⟩
  | .hbm, ⟨92, _⟩ => ⟨S50000x192, .f32⟩
  | .hbm, ⟨93, _⟩ => ⟨S50000x788, .f32⟩
  | .hbm, ⟨94, _⟩ => ⟨S1x788, .f32⟩
  | .hbm, ⟨95, _⟩ => ⟨S50000x788, .f32⟩
  | .hbm, ⟨96, _⟩ => ⟨S50000x788, .f32⟩
  | _, _ => ⟨S50000x394, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_v40 : Ref sig .tc := ⟨.hbm, 66, rfl⟩
abbrev main_cst_13 : Ref sig .tc := ⟨.hbm, 67, rfl⟩
abbrev main_v41 : Ref sig .tc := ⟨.hbm, 68, rfl⟩
abbrev main_v42 : Ref sig .tc := ⟨.hbm, 69, rfl⟩
abbrev main_c_14 : Ref sig .tc := ⟨.hbm, 70, rfl⟩
abbrev main_v43 : Ref sig .tc := ⟨.hbm, 71, rfl⟩
abbrev main_cst_15 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call0_cst : Ref sig .tc := ⟨.hbm, 79, rfl⟩
abbrev main_call0_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call1_cst : Ref sig .tc := ⟨.hbm, 90, rfl⟩
abbrev main_call1_v0 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S50000 : S_.BroadcastsInDim S50000 (![] : Fin 0 → Fin S50000.rank)
  bcast_S200000_S200000x1_0 : S200000.BroadcastsInDim S200000x1 (![0] : Fin 1 → Fin S200000x1.rank)
  bcast_S50000_S50000x1_0 : S50000.BroadcastsInDim S50000x1 (![0] : Fin 1 → Fin S50000x1.rank)
  bcast_S_S50000x394 : S_.BroadcastsInDim S50000x394 (![] : Fin 0 → Fin S50000x394.rank)
  bcast_S50000x1_S50000x394_0_1 : S50000x1.BroadcastsInDim S50000x394 (![0, 1] : Fin 2 → Fin S50000x394.rank)
  bcast_S_S1 : S_.BroadcastsInDim S1 (![] : Fin 0 → Fin S1.rank)
  concatenates_S50000x394_S50000x394_S50000x788_d1 : Shape.Concatenates [S50000x394, S50000x394] S50000x788 1
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  bcast_S_S50000x192 : S_.BroadcastsInDim S50000x192 (![] : Fin 0 → Fin S50000x192.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S788_S1x788_1 : S788.BroadcastsInDim S1x788 (![1] : Fin 1 → Fin S1x788.rank)
  bcast_S1x788_S50000x788_0_1 : S1x788.BroadcastsInDim S50000x788 (![0, 1] : Fin 2 → Fin S50000x788.rank)
  scatter_S50000_S200000x1_S200000_n_0_0_1_wf : ScatterDims.WF S50000 S200000x1 S200000 [] [0] [0] 1
  gather_S50000x394_S200000x1_S200000x394_1_0_n_n_0_1_1394_wf : GatherDims.WF S50000x394 S200000x1 S200000x394 [1] [0] [] [0] [] 1 ![1, 394]
  scatter_S50000x394_S200000x1_S200000x394_1_0_0_1_wf : ScatterDims.WF S50000x394 S200000x1 S200000x394 [1] [0] [0] 1
  scatter_S50000x394_S1_S50000_0_1_1_0_wf : ScatterDims.WF S50000x394 S1 S50000 [0] [1] [1] 0
  scatter_S50000x788_S1_S50000_0_1_1_0_wf : ScatterDims.WF S50000x788 S1 S50000 [0] [1] [1] 0
  dot_S50000x788_S788x192_S50000x192_1_0_0_1_n_n_wf : DotDims.WF S50000x788 S788x192 S50000x192 [1] [0] [0] [1] [] []
  dot_S50000x192_S192x128_S50000x128_1_0_0_1_n_n_wf : DotDims.WF S50000x192 S192x128 S50000x128 [1] [0] [0] [1] [] []
  dot_S50000x128_S128x192_S50000x192_1_0_0_1_n_n_wf : DotDims.WF S50000x128 S128x192 S50000x192 [1] [0] [0] [1] [] []
  dot_S50000x192_S192x788_S50000x788_1_0_0_1_n_n_wf : DotDims.WF S50000x192 S192x788 S50000x788 [1] [0] [0] [1] [] []

variable [Facts₀]

def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def gather_S50000x394_S200000x1_S200000x394_1_0_n_n_0_1_1394 : GatherDims S50000x394 S200000x1 S200000x394 where
  offsetDims := [1]
  collapsedSliceDims := [0]
  operandBatchingDims := []
  startIndicesBatchingDims := []
  startIndexMap := [0]
  indexVectorDim := 1
  sliceSizes := ![1, 394]
  wf := gather_S50000x394_S200000x1_S200000x394_1_0_n_n_0_1_1394_wf
def scatter_S50000x394_S200000x1_S200000x394_1_0_0_1 : ScatterDims S50000x394 S200000x1 S200000x394 where
  updateWindowDims := [1]
  insertedWindowDims := [0]
  scatterDimsToOperandDims := [0]
  indexVectorDim := 1
  wf := scatter_S50000x394_S200000x1_S200000x394_1_0_0_1_wf
def scatter_S50000x394_S1_S50000_0_1_1_0 : ScatterDims S50000x394 S1 S50000 where
  updateWindowDims := [0]
  insertedWindowDims := [1]
  scatterDimsToOperandDims := [1]
  indexVectorDim := 0
  wf := scatter_S50000x394_S1_S50000_0_1_1_0_wf
def scatter_S50000x788_S1_S50000_0_1_1_0 : ScatterDims S50000x788 S1 S50000 where
  updateWindowDims := [0]
  insertedWindowDims := [1]
  scatterDimsToOperandDims := [1]
  indexVectorDim := 0
  wf := scatter_S50000x788_S1_S50000_0_1_1_0_wf
def dot_S50000x788_S788x192_S50000x192_1_0_0_1_n_n : DotDims S50000x788 S788x192 S50000x192 where
  lhsContracting := [1]
  rhsContracting := [0]
  lhsNonContracting := [0]
  rhsNonContracting := [1]
  lhsBatch := []
  rhsBatch := []
  wf := dot_S50000x788_S788x192_S50000x192_1_0_0_1_n_n_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x192_S50000x192_1_0_0_1_n_n : DotDims S50000x128 S128x192 S50000x192 where
  lhsContracting := [1]
  rhsContracting := [0]
  lhsNonContracting := [0]
  rhsNonContracting := [1]
  lhsBatch := []
  rhsBatch := []
  wf := dot_S50000x128_S128x192_S50000x192_1_0_0_1_n_n_wf
def dot_S50000x192_S192x788_S50000x788_1_0_0_1_n_n : DotDims S50000x192 S192x788 S50000x788 where
  lhsContracting := [1]
  rhsContracting := [0]
  lhsNonContracting := [0]
  rhsNonContracting := [1]
  lhsBatch := []
  rhsBatch := []
  wf := dot_S50000x192_S192x788_S50000x788_1_0_0_1_n_n_wf

class Facts : Prop extends Facts₀ where

variable [Facts]
-- ==== Proof.LibDense.lean ====
/-
  DENSE LAYERS OVER EXTENDED REALS, AND A PLAIN MATRIX PRODUCT READ AS ONE SUM — a general file: it imports only the library.

  `Mat n k` is a rank-2 array of extended reals. `mm X W` is the matrix product at an index, the sum over the shared axis of the
  products; `dense X W β` is `X · W + β` with the bias a function of the column; `relu` the entrywise maximum with zero;
  `encode` / `decode` a two-layer encoder and a two-layer decoder after it, a relu after each one's first layer.
  ROW LOCALITY (`dense_rows`, `relu_rows`, `encode_rows`, `decode_rows`): row `r` of a layer's result is a function of row `r` of
  its operand alone, so if a block's rows are rows `f p` of an array, the result on the block has as its rows the rows `f p` of
  the result on the array. This is what makes a row-blocked evaluation equal to the whole-array one, with no law of arithmetic
  that could fail at an infinity: both sides are the same sums of the same products.
  A PLAIN PRODUCT AS ONE SUM (`plain_sum`, `matmul_plain`, `dotGeneral_plain`): `DotDims.plain M K N` is the dimension numbers of
  an `[M, K]` by `[K, N]` product, the left operand contracted on its second axis, the right on its first, no batch axis. At the
  ideal values both the vector unit's matmul into a zero accumulator and the host's dot_general, at those dimension numbers, are
  `mm`, whatever the operands' float formats and for every size. (A printed program's record with those six lists is
  `DotDims.plain` of its sizes by `rfl`.)
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- A rank-2 array of extended reals with `n` rows and `k` columns. -/
abbrev Mat (n k : Nat) : Type := (⟨2, ![n, k]⟩ : Shape).Idx → EReal

/-- The matrix product `X · W` at an index: the sum over the shared axis of the products. -/
def mm {n K M : Nat} (X : Mat n K) (W : Mat K M) : Mat n M :=
  fun i => ∑ k : Fin K, X (ix2 (⟨(i 0).val, idx2_lt0 i⟩ : Fin n) k) * W (ix2 k (⟨(i 1).val, idx2_lt1 i⟩ : Fin M))

/-- A dense layer `X · W + β`, the bias `β` a function of the column. -/
def dense {n K M : Nat} (X : Mat n K) (W : Mat K M) (β : Fin M → EReal) : Mat n M :=
  fun i => mm X W i + β ⟨(i 1).val, idx2_lt1 i⟩

/-- The entrywise maximum with zero. -/
def relu {n M : Nat} (X : Mat n M) : Mat n M := fun i => max (X i) 0

theorem mm_ix2 {n K M : Nat} (X : Mat n K) (W : Mat K M) (r : Fin n) (q : Fin M) :
    mm X W (ix2 r q) = ∑ k : Fin K, X (ix2 r k) * W (ix2 k q) := rfl

theorem dense_ix2 {n K M : Nat} (X : Mat n K) (W : Mat K M) (β : Fin M → EReal) (r : Fin n) (q : Fin M) :
    dense X W β (ix2 r q) = (∑ k : Fin K, X (ix2 r k) * W (ix2 k q)) + β q := rfl

theorem relu_ix2 {n M : Nat} (X : Mat n M) (r : Fin n) (q : Fin M) : relu X (ix2 r q) = max (X (ix2 r q)) 0 := rfl

/-- ROW LOCALITY of a dense layer: if row `p` of `X'` is row `f p` of `X`, then row `p` of the layer's result on `X'` is row
    `f p` of its result on `X`. -/
theorem dense_rows {n n' K M : Nat} (X : Mat n K) (X' : Mat n' K) (W : Mat K M) (β : Fin M → EReal) (f : Fin n' → Fin n)
    (h : ∀ p k, X' (ix2 p k) = X (ix2 (f p) k)) (p : Fin n') (q : Fin M) :
    dense X' W β (ix2 p q) = dense X W β (ix2 (f p) q) := by
  rw [dense_ix2, dense_ix2]
  exact congrArg (· + β q) (Finset.sum_congr rfl fun k _ => by rw [h p k])

/-- A relu is entrywise, so it keeps rows where they are. -/
theorem relu_rows {n n' M : Nat} (X : Mat n M) (X' : Mat n' M) (f : Fin n' → Fin n)
    (h : ∀ p k, X' (ix2 p k) = X (ix2 (f p) k)) (p : Fin n') (q : Fin M) :
    relu X' (ix2 p q) = relu X (ix2 (f p) q) := by
  rw [relu_ix2, relu_ix2, h p q]

/-- The encoder: `relu (E · W₁ + β₁) · W₃ + β₃`. -/
def encode {n d h e : Nat} (E : Mat n d) (W₁ : Mat d h) (β₁ : Fin h → EReal) (W₃ : Mat h e) (β₃ : Fin e → EReal) : Mat n e :=
  dense (relu (dense E W₁ β₁)) W₃ β₃

/-- The decoder applied to the encoder's result: `relu (enc · W₅ + β₅) · W₇ + β₇`. -/
def decode {n d h e : Nat} (E : Mat n d) (W₁ : Mat d h) (β₁ : Fin h → EReal) (W₃ : Mat h e) (β₃ : Fin e → EReal)
    (W₅ : Mat e h) (β₅ : Fin h → EReal) (W₇ : Mat h d) (β₇ : Fin d → EReal) : Mat n d :=
  dense (relu (dense (encode E W₁ β₁ W₃ β₃) W₅ β₅)) W₇ β₇

/-- Row locality of the encoder. -/
theorem encode_rows {n n' d h e : Nat} (E : Mat n d) (E' : Mat n' d) (W₁ : Mat d h) (β₁ : Fin h → EReal) (W₃ : Mat h e)
    (β₃ : Fin e → EReal) (f : Fin n' → Fin n) (hE : ∀ p k, E' (ix2 p k) = E (ix2 (f p) k)) (p : Fin n') (q : Fin e) :
    encode E' W₁ β₁ W₃ β₃ (ix2 p q) = encode E W₁ β₁ W₃ β₃ (ix2 (f p) q) :=
  dense_rows _ _ W₃ β₃ f (relu_rows _ _ f (dense_rows E E' W₁ β₁ f hE)) p q

/-- Row locality of the decoder after the encoder. -/
theorem decode_rows {n n' d h e : Nat} (E : Mat n d) (E' : Mat n' d) (W₁ : Mat d h) (β₁ : Fin h → EReal) (W₃ : Mat h e)
    (β₃ : Fin e → EReal) (W₅ : Mat e h) (β₅ : Fin h → EReal) (W₇ : Mat h d) (β₇ : Fin d → EReal) (f : Fin n' → Fin n)
    (hE : ∀ p k, E' (ix2 p k) = E (ix2 (f p) k)) (p : Fin n') (q : Fin d) :
    decode E' W₁ β₁ W₃ β₃ W₅ β₅ W₇ β₇ (ix2 p q) = decode E W₁ β₁ W₃ β₃ W₅ β₅ W₇ β₇ (ix2 (f p) q) :=
  dense_rows _ _ W₇ β₇ f (relu_rows _ _ f (dense_rows _ _ W₅ β₅ f (encode_rows E E' W₁ β₁ W₃ β₃ f hE))) p q

/-! ## A plain matrix product read at an index, once for every size -/

variable (M K N : Nat)

/-- The left operand's row is the result's row … -/
theorem plain_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and its column the contraction's coordinate. -/
theorem plain_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row is the contraction's coordinate … -/
theorem plain_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and its column the result's column. -/
theorem plain_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction's index set of the operands' products is the matrix product's entry. -/
theorem plain_sum (lhs : Mat M K) (rhs : Mat K N) (j : (⟨2, ![M, N]⟩ : Shape).Idx) :
    (∑ k : (DotDims.plain M K N).contr.Idx, lhs ((DotDims.plain M K N).lhsIdx j k) * rhs ((DotDims.plain M K N).rhsIdx j k))
      = mm lhs rhs j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (⟨(j 0).val, idx2_lt0 j⟩ : Fin M) k := funext fun a => Fin.ext (by
    match a with
    | ⟨0, _⟩ => exact plain_lhs_0 M K N _ _
    | ⟨1, _⟩ => exact (plain_lhs_1 M K N _ _).trans hk)
  have er : (DotDims.plain M K N).rhsIdx j ((contrEquiv1 (DotDims.plain M K N) K rfl rfl).symm k)
      = ix2 k (⟨(j 1).val, idx2_lt1 j⟩ : Fin N) := funext fun a => Fin.ext (by
    match a with
    | ⟨0, _⟩ => exact (plain_rhs_0 M K N _ _).trans hk
    | ⟨1, _⟩ => exact plain_rhs_1 M K N _ _)
  rw [el, er]

/-- The vector unit's matmul into the zero accumulator is the matrix product, whatever the operands' float formats. -/
theorem matmul_plain {φ₁ φ₂ : FTy} (prec : Option ContractPrecision) (lhs : FVec Ideal ⟨2, ![M, K]⟩ φ₁) (rhs : FVec Ideal ⟨2, ![K, N]⟩ φ₂) :
    (FloatOps.matmul (DotDims.plain M K N) prec lhs rhs (constant ⟨2, ![M, N]⟩ .f32 0x00000000#32) : Mat M N)
      = mm (lhs : Mat M K) (rhs : Mat K N) :=
  funext fun j => (Ideal.matmul_constant_zero_apply (DotDims.plain M K N) prec lhs rhs j).trans (plain_sum M K N _ _ j)

/-- The host's dot_general is the matrix product. -/
theorem dotGeneral_plain {φ₁ φ₂ : FTy} (prec : Option ContractPrecision) (sched : HostSchedule) (lhs : FVec Ideal ⟨2, ![M, K]⟩ φ₁)
    (rhs : FVec Ideal ⟨2, ![K, N]⟩ φ₂) :
    (FloatOps.dotGeneral (DotDims.plain M K N) prec sched lhs rhs : Mat M N) = mm (lhs : Mat M K) (rhs : Mat K N) :=
  funext fun j => (Ideal.dotGeneral_apply (DotDims.plain M K N) prec sched lhs rhs j).trans (plain_sum M K N _ _ j)

end Cert.Mlp

end
-- ==== Proof.Payload.lean ====
/-
  What the kernel body stores, as the autoencoder of its loaded blocks.

  The body loads a block `x₀ : [1000, 788]` of the embedding, the four weight matrices whole, and the four biases as one-row
  arrays `[1, M]`. Each of its four layers is a matmul into a zero accumulator plus the bias row broadcast over the block's rows;
  the first and the third are followed by a maximum with the zero splat; the narrowing format changes between the layers are
  the identity on extended reals. So the block it stores to the first output is `encode` of those loads and the block it stores
  to the second is `decode` of them (Proof/LibDense.lean), the bias of a layer being its one row read at the column (`rowOf`).
-/
import proofs.«134367_j77421080477948_1_alg».proof.Proof.Gen.KernelIdeal.Skeleton
import proofs.«134367_j77421080477948_1_alg».proof.Proof.LibDense
import Idealize.ShloMosaic.Lib.ValueLayout
import Idealize.ShloMosaic.Lib.Pipeline.Value

noncomputable section

open scoped BigOperators

namespace Cert.Mlp

open Idealize.ShloMosaic Idealize.ShloMosaic.ValueIdx

/-- A one-row array as a function of the column. -/
def rowOf {M : Nat} (b : Mat 1 M) : Fin M → EReal := fun k => b (ix2 (0 : Fin 1) k)

/-- Every rank-2 index is a pair of coordinates of the literal extents. -/
theorem exists_ix2 {n M : Nat} (j : (⟨2, ![n, M]⟩ : Shape).Idx) : ∃ (p : Fin n) (q : Fin M), j = ix2 p q :=
  ⟨⟨(j 0).val, idx2_lt0 j⟩, ⟨(j 1).val, idx2_lt1 j⟩, funext fun a => by
    match a with
    | ⟨0, _⟩ => rfl
    | ⟨1, _⟩ => rfl⟩

/-- A narrowing format change is the identity on arrays of extended reals. -/
theorem truncf_ideal {s : Shape} {φ ψ : FTy} (a : FVec Ideal s φ) (h : ψ.bits < φ.bits) : (truncf ψ a h : FVec Ideal s ψ) = a := rfl

/-- ONE LAYER as the body prints it: a plain matmul into the zero accumulator plus the bias row broadcast over the rows. -/
theorem layer_eq {n K M : Nat} {φ₁ φ₂ : FTy} (d : DotDims ⟨2, ![n, K]⟩ ⟨2, ![K, M]⟩ ⟨2, ![n, M]⟩) (hd : d = DotDims.plain n K M)
    (X : FVec Ideal ⟨2, ![n, K]⟩ φ₁) (W : FVec Ideal ⟨2, ![K, M]⟩ φ₂) (b : FVec Ideal ⟨2, ![1, M]⟩ .f32)
    (hb : (⟨2, ![1, M]⟩ : Shape).Broadcasts ⟨2, ![n, M]⟩) :
    addf (matmul d none X W (constant ⟨2, ![n, M]⟩ .f32 0x00000000#32)) (broadcastTo ⟨2, ![n, M]⟩ b hb)
      = dense (X : Mat n K) (W : Mat K M) (rowOf b) := by
  subst hd
  funext j
  obtain ⟨p, q, rfl⟩ := exists_ix2 j
  show FloatOps.matmul (DotDims.plain n K M) none X W (constant ⟨2, ![n, M]⟩ .f32 0x00000000#32) (ix2 p q)
      + broadcastTo ⟨2, ![n, M]⟩ b hb (ix2 p q) = _
  rw [broadcastTo_1b_ab_apply, congrFun (matmul_plain n K M none X W) (ix2 p q)]
  rfl

/-- The maximum with the zero splat is the relu. -/
theorem relu_eq {n M : Nat} (Y : FVec Ideal ⟨2, ![n, M]⟩ .f32) :
    maximumf Y (broadcast ⟨2, ![n, M]⟩ (Scalar.ofBits .f32 0x00000000#32)) = relu (Y : Mat n M) := by
  funext i
  show max (Y i) (Ideal.ofBits .f32 0x00000000#32) = max (Y i) 0
  rw [Ideal.ofBits_zero_f32]

end Cert.Mlp

namespace Cert.KernelIdeal.Hand

open Cert.KernelIdeal Cert.KernelIdeal.Gen Cert.Mlp Idealize.ShloMosaic Idealize.ShloMosaic.ValueIdx

/-- The block stored to the first output is the encoder of the loaded blocks. -/
theorem pay2_eq (x0 : FVec Ideal S1000x788 .f32) (x1 : FVec Ideal S788x192 .bf16) (x2 : FVec Ideal S1x192 .f32)
    (x3 : FVec Ideal S192x128 .bf16) (x4 : FVec Ideal S1x128 .f32) :
    k0_pay2 (F := Ideal) x0 x1 x2 x3 x4
      = encode (x0 : Mat 1000 788) (x1 : Mat 788 192) (rowOf x2) (x3 : Mat 192 128) (rowOf x4) := by
  unfold k0_pay2 encode
  simp only [shapeCast_self, truncf_ideal]
  rw [layer_eq dot_S1000x788_S788x192_S1000x192_1_0_0_1_n_n rfl, relu_eq,
    layer_eq dot_S1000x192_S192x128_S1000x128_1_0_0_1_n_n rfl]

/-- The third layer's relu, narrowed: what the body passes to its last matmul. -/
theorem pay3_eq (x0 : FVec Ideal S1000x788 .f32) (x1 : FVec Ideal S788x192 .bf16) (x2 : FVec Ideal S1x192 .f32)
    (x3 : FVec Ideal S192x128 .bf16) (x4 : FVec Ideal S1x128 .f32) (x5 : FVec Ideal S128x192 .bf16) (x6 : FVec Ideal S1x192 .f32) :
    k0_pay3 (F := Ideal) x0 x1 x2 x3 x4 x5 x6
      = relu (dense (encode (x0 : Mat 1000 788) (x1 : Mat 788 192) (rowOf x2) (x3 : Mat 192 128) (rowOf x4)) (x5 : Mat 128 192) (rowOf x6)) := by
  unfold k0_pay3
  simp only [shapeCast_self, truncf_ideal]
  rw [pay2_eq, layer_eq dot_S1000x128_S128x192_S1000x192_1_0_0_1_n_n rfl, relu_eq]

/-- The block stored to the second output is the decoder, after the encoder, of the loaded blocks. -/
theorem pay1_eq (x0 : FVec Ideal S1000x788 .f32) (x1 : FVec Ideal S788x192 .bf16) (x2 : FVec Ideal S1x192 .f32)
    (x3 : FVec Ideal S192x128 .bf16) (x4 : FVec Ideal S1x128 .f32) (x5 : FVec Ideal S128x192 .bf16) (x6 : FVec Ideal S1x192 .f32)
    (x7 : FVec Ideal S192x788 .bf16) (x8 : FVec Ideal S1x788 .f32) :
    k0_pay1 (F := Ideal) (k0_pay3 x0 x1 x2 x3 x4 x5 x6) (k0_pay4 x7) (constant S1000x788 .f32 0x00000000#32) x8
      = decode (x0 : Mat 1000 788) (x1 : Mat 788 192) (rowOf x2) (x3 : Mat 192 128) (rowOf x4) (x5 : Mat 128 192) (rowOf x6)
          (x7 : Mat 192 788) (rowOf x8) := by
  unfold k0_pay1 k0_pay4 decode
  simp only [shapeCast_self]
  rw [pay3_eq, layer_eq dot_S1000x192_S192x788_S1000x788_1_0_0_1_n_n rfl]

end Cert.KernelIdeal.Hand

end
-- ==== Proof.KernelHost.lean ====
/-
  What the region finds in its operand arrays.

  Before the region the host program converts the four weight matrices to a narrower float format and reshapes the four bias
  vectors `[M]` to one-row arrays `[1, M]`. On extended reals the conversion is the identity, so the region finds the weights as
  launched; and the one row of a reshaped bias, read at a column, is the bias at that column. Each array is read off the host
  program's 74 operations, none of which after its own writes it.
-/
import proofs.«134367_j77421080477948_1_alg».proof.Proof.Gen.KernelIdeal.Frame
import proofs.«134367_j77421080477948_1_alg».proof.Proof.Payload
import Idealize.ShloMosaic.Lib.StableHlo.Run
import Idealize.ShloMosaic.Lib.ValueLayout

noncomputable section

namespace Cert.KernelIdeal.Hand

open Cert.KernelIdeal Cert.KernelIdeal.Gen Cert.Mlp Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 1000000 in
/-- The first encoder weight as the region finds it: the argument. -/
theorem V_w1 (c : Dev nD) : (V m c main_v46 : S788x192.Idx → EReal) = m ((c : Thread nD τ).loc main_arg3) := by
  dsimp only [Gen.V, Gen.hostOps0]
  after_results
  rfl

set_option maxHeartbeats 1000000 in
/-- The second encoder weight as the region finds it: the argument. -/
theorem V_w3 (c : Dev nD) : (V m c main_v47 : S192x128.Idx → EReal) = m ((c : Thread nD τ).loc main_arg5) := by
  dsimp only [Gen.V, Gen.hostOps0]
  after_results
  rfl

set_option maxHeartbeats 1000000 in
/-- The first decoder weight as the region finds it: the argument. -/
theorem V_w5 (c : Dev nD) : (V m c main_v48 : S128x192.Idx → EReal) = m ((c : Thread nD τ).loc main_arg7) := by
  dsimp only [Gen.V, Gen.hostOps0]
  after_results
  rfl

set_option maxHeartbeats 1000000 in
/-- The second decoder weight as the region finds it: the argument. -/
theorem V_w7 (c : Dev nD) : (V m c main_v49 : S192x788.Idx → EReal) = m ((c : Thread nD τ).loc main_arg9) := by
  dsimp only [Gen.V, Gen.hostOps0]
  after_results
  rfl

set_option maxHeartbeats 1000000 in
/-- The first encoder bias as the region finds it: the argument recast to one row. -/
theorem V_b1_cast (c : Dev nD) (X : S1x192.Idx → EReal)
    (hX : X = shapeCast S1x192 (m ((c : Thread nD τ).loc main_arg4)) shapeCasts_S192_S1x192) :
    (V m c main_v50 : S1x192.Idx → EReal) = X := by
  dsimp only [Gen.V, Gen.hostOps0]
  after_results
  rw [hX]
  rfl

set_option maxHeartbeats 1000000 in
/-- The second encoder bias as the region finds it: the argument recast to one row. -/
theorem V_b3_cast (c : Dev nD) (X : S1x128.Idx → EReal)
    (hX : X = shapeCast S1x128 (m ((c : Thread nD τ).loc main_arg6)) shapeCasts_S128_S1x128) :
    (V m c main_v51 : S1x128.Idx → EReal) = X := by
  dsimp only [Gen.V, Gen.hostOps0]
  after_results
  rw [hX]
  rfl

set_option maxHeartbeats 1000000 in
/-- The first decoder bias as the region finds it: the argument recast to one row. -/
theorem V_b5_cast (c : Dev nD) (X : S1x192.Idx → EReal)
    (hX : X = shapeCast S1x192 (m ((c : Thread nD τ).loc main_arg8)) shapeCasts_S192_S1x192) :
    (V m c main_v52 : S1x192.Idx → EReal) = X := by
  dsimp only [Gen.V, Gen.hostOps0]
  after_results
  rw [hX]
  rfl

set_option maxHeartbeats 1000000 in
/-- The second decoder bias as the region finds it: the argument recast to one row. -/
theorem V_b7_cast (c : Dev nD) (X : S1x788.Idx → EReal)
    (hX : X = shapeCast S1x788 (m ((c : Thread nD τ).loc main_arg10)) shapeCasts_S788_S1x788) :
    (V m c main_v53 : S1x788.Idx → EReal) = X := by
  dsimp only [Gen.V, Gen.hostOps0]
  after_results
  rw [hX]
  rfl

/-- The first encoder bias as the region finds it, read at a column: the argument there. -/
theorem V_b1 (c : Dev nD) :
    rowOf (V m c main_v50 : Mat 1 192) = fun k => (m ((c : Thread nD τ).loc main_arg4) : S192.Idx → EReal) (ix1 k) := by
  funext k
  unfold rowOf
  rw [V_b1_cast m c _ rfl]
  exact shapeCast_a_1a_apply _ _ 0 k

/-- The second encoder bias as the region finds it, read at a column: the argument there. -/
theorem V_b3 (c : Dev nD) :
    rowOf (V m c main_v51 : Mat 1 128) = fun k => (m ((c : Thread nD τ).loc main_arg6) : S128.Idx → EReal) (ix1 k) := by
  funext k
  unfold rowOf
  rw [V_b3_cast m c _ rfl]
  exact shapeCast_a_1a_apply _ _ 0 k

/-- The first decoder bias as the region finds it, read at a column: the argument there. -/
theorem V_b5 (c : Dev nD) :
    rowOf (V m c main_v52 : Mat 1 192) = fun k => (m ((c : Thread nD τ).loc main_arg8) : S192.Idx → EReal) (ix1 k) := by
  funext k
  unfold rowOf
  rw [V_b5_cast m c _ rfl]
  exact shapeCast_a_1a_apply _ _ 0 k

/-- The second decoder bias as the region finds it, read at a column: the argument there. -/
theorem V_b7 (c : Dev nD) :
    rowOf (V m c main_v53 : Mat 1 788) = fun k => (m ((c : Thread nD τ).loc main_arg10) : S788.Idx → EReal) (ix1 k) := by
  funext k
  unfold rowOf
  rw [V_b7_cast m c _ rfl]
  exact shapeCast_a_1a_apply _ _ 0 k

end Cert.KernelIdeal.Hand

end
-- ==== Proof.KernelBlocks.lean ====
/-
  From blocks to arrays: the two result arrays of the kernel as whole-array functions, and its run re-posted.

  The grid has 50 points. At point `t` the embedding's window holds rows `1000 t … 1000 t + 999` of the embedding as the region
  finds it (`blk0_apply`); every weight's and every bias's window holds its whole array (`blk1_eq` … `blk8_eq`); and each output
  window writes back rows `1000 t … 1000 t + 999` of its array. What point `t` writes back to the first output is the encoder
  of its loads (Proof/Payload.lean), which by row locality (Proof/LibDense.lean) is rows `1000 t …` of the encoder of the whole
  embedding: block `t` of ONE whole-array function (`flushed9_eq`); the same for the decoder and the second output
  (`flushed10_eq`). Row `r` of an output lies in the block of point `r / 1000`, so the blocks cover the arrays (`cover9`,
  `cover10`) and the arrays end holding those functions (`final9`, `final10`). The third result, the embedding, is the array of
  an input window: the run leaves it as the region found it (`post_emb`).
-/
import proofs.«134367_j77421080477948_1_alg».proof.Proof.Gen.KernelIdeal.Value
import proofs.«134367_j77421080477948_1_alg».proof.Proof.Payload
import Idealize.ShloMosaic.Lib.Pipeline.Value

noncomputable section

namespace Cert.KernelIdeal.Hand

open Cert.KernelIdeal Cert.KernelIdeal.Gen Cert.KernelIdeal.Value Cert.Mlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The printed index maps, decided over the 50 points -/

/-- The embedding's window and the two output windows move down the rows with the point; their column block is the one there is. -/
theorem idx_rows : ∀ t : Fin cfg0.N, win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Every weight's and every bias's window stays on its one block. -/
theorem idx_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem lt_N (t : Fin cfg0.N) : t.val < 50 := Nat.lt_of_lt_of_eq t.isLt (N_0 : cfg0.N = 50)

/-! ## The input windows' blocks -/

/-- Row `p` of the embedding's block at point `t` is row `1000 t + p` of the embedding as the region finds it. -/
theorem blk0_apply (c : Dev nD) (t : Fin cfg0.N) (p : Fin 1000) (k : Fin 788) (h : 1000 * t.val + p.val < 50000) :
    (iblk m c 0 t : Mat 1000 788) (ix2 p k) = (V m c main_v45 : Mat 50000 788) (ix2 (⟨1000 * t.val + p.val, h⟩ : Fin 50000) k) := by
  obtain ⟨e0, e1, -⟩ := idx_rows t
  unfold iblk
  rw [View.read_apply]
  show V m c main_v45 _ = V m c main_v45 _
  congr 1
  funext a
  apply Fin.ext
  match a with
  | ⟨0, _⟩ => show win0_0.index t (0 : Fin 2) * 1000 + 1 * p.val = 1000 * t.val + p.val; rw [e0]; omega
  | ⟨1, _⟩ => show win0_0.index t (1 : Fin 2) * 788 + 1 * k.val = k.val; rw [e1]; omega

/-- Two rank-2 indices with the same coordinates are the same index. -/
theorem idx2_ext {n k : Nat} (x y : (⟨2, ![n, k]⟩ : Shape).Idx) (h0 : (x 0).val = (y 0).val) (h1 : (x 1).val = (y 1).val) : x = y :=
  funext fun a => Fin.ext (by
    match a with
    | ⟨0, _⟩ => exact h0
    | ⟨1, _⟩ => exact h1)

/-- The first encoder weight's window holds, at every point, the whole weight as the region finds it. -/
theorem blk1_eq (c : Dev nD) (t : Fin cfg0.N) : (iblk m c 1 t : Mat 788 192) = (V m c main_v46 : Mat 788 192) := by
  obtain ⟨e0, e1, -⟩ := idx_whole t
  funext y
  unfold iblk
  rw [View.read_apply]
  show V m c main_v46 _ = V m c main_v46 y
  refine congrArg _ (idx2_ext _ y ?_ ?_)
  · show win0_1.index t (0 : Fin 2) * 788 + 1 * (y 0).val = (y 0).val; rw [e0]; omega
  · show win0_1.index t (1 : Fin 2) * 192 + 1 * (y 1).val = (y 1).val; rw [e1]; omega

/-- The first encoder bias's window holds, at every point, the whole one-row bias as the region finds it. -/
theorem blk2_eq (c : Dev nD) (t : Fin cfg0.N) : (iblk m c 2 t : Mat 1 192) = (V m c main_v50 : Mat 1 192) := by
  obtain ⟨-, -, e0, e1, -⟩ := idx_whole t
  funext y
  unfold iblk
  rw [View.read_apply]
  show V m c main_v50 _ = V m c main_v50 y
  refine congrArg _ (idx2_ext _ y ?_ ?_)
  · show win0_2.index t (0 : Fin 2) * 1 + 1 * (y 0).val = (y 0).val; rw [e0]; omega
  · show win0_2.index t (1 : Fin 2) * 192 + 1 * (y 1).val = (y 1).val; rw [e1]; omega

/-- The second encoder weight's window holds, at every point, the whole weight as the region finds it. -/
theorem blk3_eq (c : Dev nD) (t : Fin cfg0.N) : (iblk m c 3 t : Mat 192 128) = (V m c main_v47 : Mat 192 128) := by
  obtain ⟨-, -, -, -, e0, e1, -⟩ := idx_whole t
  funext y
  unfold iblk
  rw [View.read_apply]
  show V m c main_v47 _ = V m c main_v47 y
  refine congrArg _ (idx2_ext _ y ?_ ?_)
  · show win0_3.index t (0 : Fin 2) * 192 + 1 * (y 0).val = (y 0).val; rw [e0]; omega
  · show win0_3.index t (1 : Fin 2) * 128 + 1 * (y 1).val = (y 1).val; rw [e1]; omega

/-- The second encoder bias's window holds, at every point, the whole one-row bias as the region finds it. -/
theorem blk4_eq (c : Dev nD) (t : Fin cfg0.N) : (iblk m c 4 t : Mat 1 128) = (V m c main_v51 : Mat 1 128) := by
  obtain ⟨-, -, -, -, -, -, e0, e1, -⟩ := idx_whole t
  funext y
  unfold iblk
  rw [View.read_apply]
  show V m c main_v51 _ = V m c main_v51 y
  refine congrArg _ (idx2_ext _ y ?_ ?_)
  · show win0_4.index t (0 : Fin 2) * 1 + 1 * (y 0).val = (y 0).val; rw [e0]; omega
  · show win0_4.index t (1 : Fin 2) * 128 + 1 * (y 1).val = (y 1).val; rw [e1]; omega

/-- The first decoder weight's window holds, at every point, the whole weight as the region finds it. -/
theorem blk5_eq (c : Dev nD) (t : Fin cfg0.N) : (iblk m c 5 t : Mat 128 192) = (V m c main_v48 : Mat 128 192) := by
  obtain ⟨-, -, -, -, -, -, -, -, e0, e1, -⟩ := idx_whole t
  funext y
  unfold iblk
  rw [View.read_apply]
  show V m c main_v48 _ = V m c main_v48 y
  refine congrArg _ (idx2_ext _ y ?_ ?_)
  · show win0_5.index t (0 : Fin 2) * 128 + 1 * (y 0).val = (y 0).val; rw [e0]; omega
  · show win0_5.index t (1 : Fin 2) * 192 + 1 * (y 1).val = (y 1).val; rw [e1]; omega

/-- The first decoder bias's window holds, at every point, the whole one-row bias as the region finds it. -/
theorem blk6_eq (c : Dev nD) (t : Fin cfg0.N) : (iblk m c 6 t : Mat 1 192) = (V m c main_v52 : Mat 1 192) := by
  obtain ⟨-, -, -, -, -, -, -, -, -, -, e0, e1, -⟩ := idx_whole t
  funext y
  unfold iblk
  rw [View.read_apply]
  show V m c main_v52 _ = V m c main_v52 y
  refine congrArg _ (idx2_ext _ y ?_ ?_)
  · show win0_6.index t (0 : Fin 2) * 1 + 1 * (y 0).val = (y 0).val; rw [e0]; omega
  · show win0_6.index t (1 : Fin 2) * 192 + 1 * (y 1).val = (y 1).val; rw [e1]; omega

/-- The second decoder weight's window holds, at every point, the whole weight as the region finds it. -/
theorem blk7_eq (c : Dev nD) (t : Fin cfg0.N) : (iblk m c 7 t : Mat 192 788) = (V m c main_v49 : Mat 192 788) := by
  obtain ⟨-, -, -, -, -, -, -, -, -, -, -, -, e0, e1, -⟩ := idx_whole t
  funext y
  unfold iblk
  rw [View.read_apply]
  show V m c main_v49 _ = V m c main_v49 y
  refine congrArg _ (idx2_ext _ y ?_ ?_)
  · show win0_7.index t (0 : Fin 2) * 192 + 1 * (y 0).val = (y 0).val; rw [e0]; omega
  · show win0_7.index t (1 : Fin 2) * 788 + 1 * (y 1).val = (y 1).val; rw [e1]; omega

/-- The second decoder bias's window holds, at every point, the whole one-row bias as the region finds it. -/
theorem blk8_eq (c : Dev nD) (t : Fin cfg0.N) : (iblk m c 8 t : Mat 1 788) = (V m c main_v53 : Mat 1 788) := by
  obtain ⟨-, -, -, -, -, -, -, -, -, -, -, -, -, -, e0, e1⟩ := idx_whole t
  funext y
  unfold iblk
  rw [View.read_apply]
  show V m c main_v53 _ = V m c main_v53 y
  refine congrArg _ (idx2_ext _ y ?_ ?_)
  · show win0_8.index t (0 : Fin 2) * 1 + 1 * (y 0).val = (y 0).val; rw [e0]; omega
  · show win0_8.index t (1 : Fin 2) * 788 + 1 * (y 1).val = (y 1).val; rw [e1]; omega

/-! ## The two result arrays as whole-array functions of what the region finds -/

/-- The encoder of the whole embedding, over the weights and biases as the region finds them. -/
def encV (c : Dev nD) : Mat 50000 128 :=
  encode (V m c main_v45 : Mat 50000 788) (V m c main_v46 : Mat 788 192) (rowOf (V m c main_v50 : Mat 1 192))
    (V m c main_v47 : Mat 192 128) (rowOf (V m c main_v51 : Mat 1 128))

/-- The decoder after the encoder of the whole embedding, over the weights and biases as the region finds them. -/
def decV (c : Dev nD) : Mat 50000 788 :=
  decode (V m c main_v45 : Mat 50000 788) (V m c main_v46 : Mat 788 192) (rowOf (V m c main_v50 : Mat 1 192))
    (V m c main_v47 : Mat 192 128) (rowOf (V m c main_v51 : Mat 1 128)) (V m c main_v48 : Mat 128 192)
    (rowOf (V m c main_v52 : Mat 1 192)) (V m c main_v49 : Mat 192 788) (rowOf (V m c main_v53 : Mat 1 788))

/-- WHAT POINT `t` WRITES BACK to the first output is block `t` of the encoder of the whole embedding. -/
theorem flushed9_eq (c : Dev nD) (t : Fin cfg0.N) :
    (dats m 0 c).flushed 9 t = ((cfg0.win 9).blk t).view.read (Elt Ideal) (encV m c) := by
  have hN := lt_N t
  obtain ⟨-, -, e0, e1, -⟩ := idx_rows t
  rw [Value.flushed9]
  unfold out0_9
  rw [View.canon_unit_zero hz]
  simp only [View.ld_unit_zero (S := S1000x788) hz, View.ld_unit_zero (S := S788x192) hz, View.ld_unit_zero (S := S1x192) hz,
    View.ld_unit_zero (S := S192x128) hz, View.ld_unit_zero (S := S1x128) hz]
  rw [pay2_eq (iblk m c 0 t) (iblk m c 1 t) (iblk m c 2 t) (iblk m c 3 t) (iblk m c 4 t), blk1_eq, blk2_eq, blk3_eq, blk4_eq]
  funext y
  obtain ⟨p, q, rfl⟩ := exists_ix2 y
  have hemb : ((cfg0.win 9).blk t).view.emb (ix2 p q) = ix2 (⟨1000 * t.val + p.val, by omega⟩ : Fin 50000) q := by
    funext a
    apply Fin.ext
    match a with
    | ⟨0, _⟩ => show win0_9.index t (0 : Fin 2) * 1000 + 1 * p.val = 1000 * t.val + p.val; rw [e0]; omega
    | ⟨1, _⟩ => show win0_9.index t (1 : Fin 2) * 128 + 1 * q.val = q.val; rw [e1]; omega
  show encode (iblk m c 0 t : Mat 1000 788) (V m c main_v46 : Mat 788 192) (rowOf (V m c main_v50 : Mat 1 192))
      (V m c main_v47 : Mat 192 128) (rowOf (V m c main_v51 : Mat 1 128)) (ix2 p q)
    = encV m c (((cfg0.win 9).blk t).view.emb (ix2 p q))
  rw [hemb]
  exact encode_rows _ _ _ _ _ _ (fun p => (⟨1000 * t.val + p.val, by omega⟩ : Fin 50000)) (fun p k => blk0_apply m c t p k _) p q

/-- WHAT POINT `t` WRITES BACK to the second output is block `t` of the decoder, after the encoder, of the whole embedding. -/
theorem flushed10_eq (c : Dev nD) (t : Fin cfg0.N) :
    (dats m 0 c).flushed 10 t = ((cfg0.win 10).blk t).view.read (Elt Ideal) (decV m c) := by
  have hN := lt_N t
  obtain ⟨-, -, -, -, e0, e1⟩ := idx_rows t
  rw [Value.flushed10]
  unfold out0_10
  rw [View.canon_unit_zero hz]
  simp only [View.ld_unit_zero (S := S1000x788) hz, View.ld_unit_zero (S := S788x192) hz, View.ld_unit_zero (S := S1x192) hz,
    View.ld_unit_zero (S := S192x128) hz, View.ld_unit_zero (S := S1x128) hz, View.ld_unit_zero (S := S128x192) hz,
    View.ld_unit_zero (S := S192x788) hz, View.ld_unit_zero (S := S1x788) hz]
  rw [pay1_eq (iblk m c 0 t) (iblk m c 1 t) (iblk m c 2 t) (iblk m c 3 t) (iblk m c 4 t) (iblk m c 5 t) (iblk m c 6 t)
      (iblk m c 7 t) (iblk m c 8 t), blk1_eq, blk2_eq, blk3_eq, blk4_eq, blk5_eq, blk6_eq, blk7_eq, blk8_eq]
  funext y
  obtain ⟨p, q, rfl⟩ := exists_ix2 y
  have hemb : ((cfg0.win 10).blk t).view.emb (ix2 p q) = ix2 (⟨1000 * t.val + p.val, by omega⟩ : Fin 50000) q := by
    funext a
    apply Fin.ext
    match a with
    | ⟨0, _⟩ => show win0_10.index t (0 : Fin 2) * 1000 + 1 * p.val = 1000 * t.val + p.val; rw [e0]; omega
    | ⟨1, _⟩ => show win0_10.index t (1 : Fin 2) * 788 + 1 * q.val = q.val; rw [e1]; omega
  show decode (iblk m c 0 t : Mat 1000 788) (V m c main_v46 : Mat 788 192) (rowOf (V m c main_v50 : Mat 1 192))
      (V m c main_v47 : Mat 192 128) (rowOf (V m c main_v51 : Mat 1 128)) (V m c main_v48 : Mat 128 192)
      (rowOf (V m c main_v52 : Mat 1 192)) (V m c main_v49 : Mat 192 788) (rowOf (V m c main_v53 : Mat 1 788)) (ix2 p q)
    = decV m c (((cfg0.win 10).blk t).view.emb (ix2 p q))
  rw [hemb]
  exact decode_rows _ _ _ _ _ _ _ _ _ _ (fun p => (⟨1000 * t.val + p.val, by omega⟩ : Fin 50000)) (fun p k => blk0_apply m c t p k _) p q

/-! ## The blocks cover the arrays -/

/-- An index of the first output is in point `t`'s block iff each coordinate is in the block's range on its axis. -/
theorem mem_blk9 (t : Fin cfg0.N) (i : S50000x128.Idx) :
    i ∈ ((cfg0.win 9).blk t).view.set ↔ ∀ a : Fin 2, win0_9.index t a * S1000x128.size a ≤ (i a).val ∧ (i a).val < win0_9.index t a * S1000x128.size a + S1000x128.size a := by
  show i ∈ ((View.whole main_v54_0).slice (win0_9.rect t)).set ↔ _
  rw [View.set_slice_whole, Rect.mem_set_unit]
  exact Iff.rfl

/-- Row `r` of the first output lies in the block of point `r / 1000`. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 50 := N_0
  have ht : (i 0).val / 1000 < cfg0.N := by rw [hN]; omega
  obtain ⟨-, -, e0, e1, -⟩ := idx_rows ⟨(i 0).val / 1000, ht⟩
  refine ⟨⟨(i 0).val / 1000, ht⟩, flush0_9 _, ?_⟩
  rw [mem_blk9]
  intro a
  match a with
  | ⟨0, _⟩ =>
    show win0_9.index ⟨(i 0).val / 1000, ht⟩ (0 : Fin 2) * 1000 ≤ (i 0).val ∧ (i 0).val < win0_9.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win0_9.index ⟨(i 0).val / 1000, ht⟩ (1 : Fin 2) * 128 ≤ (i 1).val ∧ (i 1).val < win0_9.index ⟨(i 0).val / 1000, ht⟩ (1 : Fin 2) * 128 + 128
    rw [e1]
    omega

/-- An index of the second output is in point `t`'s block iff each coordinate is in the block's range on its axis. -/
theorem mem_blk10 (t : Fin cfg0.N) (i : S50000x788.Idx) :
    i ∈ ((cfg0.win 10).blk t).view.set ↔ ∀ a : Fin 2, win0_10.index t a * S1000x788.size a ≤ (i a).val ∧ (i a).val < win0_10.index t a * S1000x788.size a + S1000x788.size a := by
  show i ∈ ((View.whole main_v54_1).slice (win0_10.rect t)).set ↔ _
  rw [View.set_slice_whole, Rect.mem_set_unit]
  exact Iff.rfl

/-- Row `r` of the second output lies in the block of point `r / 1000`. -/
theorem cover10 (i : S50000x788.Idx) : ∃ t : Fin cfg0.N, (cfg0.win 10).flush t = true ∧ i ∈ ((cfg0.win 10).blk t).view.set := by
  have hi0 : (i 0).val < 50000 := (i 0).isLt
  have hi1 : (i 1).val < 788 := (i 1).isLt
  have hN : cfg0.N = 50 := N_0
  have ht : (i 0).val / 1000 < cfg0.N := by rw [hN]; omega
  obtain ⟨-, -, -, -, e0, e1⟩ := idx_rows ⟨(i 0).val / 1000, ht⟩
  refine ⟨⟨(i 0).val / 1000, ht⟩, flush0_10 _, ?_⟩
  rw [mem_blk10]
  intro a
  match a with
  | ⟨0, _⟩ =>
    show win0_10.index ⟨(i 0).val / 1000, ht⟩ (0 : Fin 2) * 1000 ≤ (i 0).val ∧ (i 0).val < win0_10.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win0_10.index ⟨(i 0).val / 1000, ht⟩ (1 : Fin 2) * 788 ≤ (i 1).val ∧ (i 1).val < win0_10.index ⟨(i 0).val / 1000, ht⟩ (1 : Fin 2) * 788 + 788
    rw [e1]
    omega

/-- The first output ends holding the encoder of the whole embedding. -/
theorem final9 (c : Dev nD) : (dats m 0 c).arrAt 9 cfg0.N = encV m c :=
  (dats m 0 c).arrAt_eq_of_cover 9 (encV m c) (fun t _ => flushed9_eq m c t) cover9

/-- The second output ends holding the decoder, after the encoder, of the whole embedding. -/
theorem final10 (c : Dev nD) : (dats m 0 c).arrAt 10 cfg0.N = decV m c :=
  (dats m 0 c).arrAt_eq_of_cover 10 (decV m c) (fun t _ => flushed10_eq m c t) cover10

/-- The embedding is an input window's array: after the run it is as the region found it. -/
theorem post_emb (r : PUnit × MemSt nD τ sig (Elt Ideal)) (h : Pipeline.FramePost cfgs (dats m) 0 (V m) r) (c : Dev nD) :
    r.2.mem ((c : Thread nD τ).loc main_v45) = V m c main_v45 :=
  ((h c).1 0).trans (((dats m 0 c).arrAt_in 0 rfl cfg0.N).trans (A_eq m c 0))

/-! ## The run, read -/

/-- The frame run re-posted: the two output arrays at their whole-array functions, the embedding as the region found it, the
    arguments unchanged. -/
theorem run : θ_run defs (onTc (τ := τ) (main (F := Ideal))) ⟨m, fun _ => 0, ρ⟩ fun r => ∀ c : Dev nD,
      r.2.mem ((c : Thread nD τ).loc main_v54_0) = encV m c
      ∧ r.2.mem ((c : Thread nD τ).loc main_v54_1) = decV m c
      ∧ r.2.mem ((c : Thread nD τ).loc main_v45) = V m c main_v45
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post9 m r h c).trans (final9 m c),
      (post10 m r h c).trans (final10 m c),
      post_emb m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Hand

end
-- ==== Proof.RefRunHand.lean ====
/-
  The reference's run, read: its three results as the stage functions of its arguments.

  The reference is a straight line of 86 host operations, so every execution ends with each buffer at the fold of the operations'
  results over the launch contents. To read the three results off that fold it is cut in two at the one concatenation (the
  features beside the second-hop mean, operation 54). The first 53 operations, over any contents `V`, leave the second-hop mean
  at its stage function of the features and the two edge arrays (`front_v38`) and do not write the arguments (`front_arg0` …).
  The last 33, over ANY contents `W` that hold those values, leave the embedding, the encoding and the decoding at their stage
  functions (`back_v45`, `back_v54`, `back_v63`): with `W` left unnamed, the concatenation's two operands are plain reads of
  `W`, which the front's facts then replace. Cutting there is what keeps each half a single pass over its operations.
-/
import proofs.«134367_j77421080477948_1_alg».proof.Proof.RefRead
import Idealize.ShloMosaic.Lib.Pipeline.Frame
import Idealize.ShloMosaic.Lib.StableHlo.Run

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operations before the concatenation … -/
abbrev opsFront : List (HloOp τ sig (Elt F)) := (ops (F := F)).take 53
/-- … and from it on. -/
abbrev opsBack : List (HloOp τ sig (Elt F)) := (ops (F := F)).drop 53

theorem ops_cut : (ops (F := F)) = opsFront ++ opsBack := (List.take_append_drop 53 _).symm

/-! ## The first 53 operations -/

set_option maxRecDepth 16384 in
set_option maxHeartbeats 4000000 in
/-- They leave the second-hop mean at its stage function of the features and the two edge arrays. -/
theorem front_v38 (V : Valuation τ sig (Elt F)) :
    after opsFront V (Proc.devRef .tc main_v38)
      = val_main_v38 (F := F) (V (Proc.devRef .tc main_arg0)) (V (Proc.devRef .tc main_arg1)) (V (Proc.devRef .tc main_arg2)) := by
  simp only [opsFront, ops, List.take_succ_cons, List.take_zero]
  after_results_simp
  rfl

set_option maxHeartbeats 4000000 in
/-- They do not write the features … -/
theorem front_arg0 (V : Valuation τ sig (Elt F)) : after opsFront V (Proc.devRef .tc main_arg0) = V (Proc.devRef .tc main_arg0) := by
  simp only [opsFront, ops, List.take_succ_cons, List.take_zero]
  after_results_simp

set_option maxHeartbeats 4000000 in
/-- … nor any weight or bias. -/
theorem front_weights (V : Valuation τ sig (Elt F)) :
    after opsFront V (Proc.devRef .tc main_arg3) = V (Proc.devRef .tc main_arg3)
    ∧ after opsFront V (Proc.devRef .tc main_arg4) = V (Proc.devRef .tc main_arg4)
    ∧ after opsFront V (Proc.devRef .tc main_arg5) = V (Proc.devRef .tc main_arg5)
    ∧ after opsFront V (Proc.devRef .tc main_arg6) = V (Proc.devRef .tc main_arg6)
    ∧ after opsFront V (Proc.devRef .tc main_arg7) = V (Proc.devRef .tc main_arg7)
    ∧ after opsFront V (Proc.devRef .tc main_arg8) = V (Proc.devRef .tc main_arg8)
    ∧ after opsFront V (Proc.devRef .tc main_arg9) = V (Proc.devRef .tc main_arg9)
    ∧ after opsFront V (Proc.devRef .tc main_arg10) = V (Proc.devRef .tc main_arg10) := by
  simp only [opsFront, ops, List.take_succ_cons, List.take_zero]
  after_results_simp
  simp only [and_self]

/-! ## The last 33 operations, over any contents that hold what the first 53 left -/

set_option maxRecDepth 16384 in
set_option maxHeartbeats 4000000 in
/-- The embedding. -/
theorem back_v45 (W : Valuation τ sig (Elt F)) (x0 : (⟨S50000x394, .f32⟩ : BufTy).Contents (Elt F))
    (x1 x2 : (⟨S200000, .i32⟩ : BufTy).Contents (Elt F))
    (h0 : W (Proc.devRef .tc main_arg0) = x0) (h38 : W (Proc.devRef .tc main_v38) = val_main_v38 (F := F) x0 x1 x2) :
    after opsBack W (Proc.devRef .tc main_v45) = val_main_v45 (F := F) x0 x1 x2 := by
  simp only [opsBack, ops, List.drop_succ_cons, List.drop_zero]
  after_results_simp
  rw [h0, h38]
  rfl

set_option maxRecDepth 16384 in
set_option maxHeartbeats 4000000 in
/-- The encoding. -/
theorem back_v54 (W : Valuation τ sig (Elt F)) (x0 : (⟨S50000x394, .f32⟩ : BufTy).Contents (Elt F))
    (x1 x2 : (⟨S200000, .i32⟩ : BufTy).Contents (Elt F)) (x3 : (⟨S788x192, .f32⟩ : BufTy).Contents (Elt F))
    (x4 : (⟨S192, .f32⟩ : BufTy).Contents (Elt F)) (x5 : (⟨S192x128, .f32⟩ : BufTy).Contents (Elt F))
    (x6 : (⟨S128, .f32⟩ : BufTy).Contents (Elt F))
    (h0 : W (Proc.devRef .tc main_arg0) = x0) (h38 : W (Proc.devRef .tc main_v38) = val_main_v38 (F := F) x0 x1 x2)
    (h3 : W (Proc.devRef .tc main_arg3) = x3) (h4 : W (Proc.devRef .tc main_arg4) = x4) (h5 : W (Proc.devRef .tc main_arg5) = x5)
    (h6 : W (Proc.devRef .tc main_arg6) = x6) :
    after opsBack W (Proc.devRef .tc main_v54) = val_main_v54 (F := F) x0 x1 x2 x3 x4 x5 x6 := by
  simp only [opsBack, ops, List.drop_succ_cons, List.drop_zero]
  after_results_simp
  rw [h0, h38, h3, h4, h5, h6]
  try simp only [TRef.ofBuf, TRef.toBuf, cast_eq]
  rfl

set_option maxRecDepth 16384 in
set_option maxHeartbeats 4000000 in
/-- The decoding. -/
theorem back_v63 (W : Valuation τ sig (Elt F)) (x0 : (⟨S50000x394, .f32⟩ : BufTy).Contents (Elt F))
    (x1 x2 : (⟨S200000, .i32⟩ : BufTy).Contents (Elt F)) (x3 : (⟨S788x192, .f32⟩ : BufTy).Contents (Elt F))
    (x4 : (⟨S192, .f32⟩ : BufTy).Contents (Elt F)) (x5 : (⟨S192x128, .f32⟩ : BufTy).Contents (Elt F))
    (x6 : (⟨S128, .f32⟩ : BufTy).Contents (Elt F)) (x7 : (⟨S128x192, .f32⟩ : BufTy).Contents (Elt F))
    (x8 : (⟨S192, .f32⟩ : BufTy).Contents (Elt F)) (x9 : (⟨S192x788, .f32⟩ : BufTy).Contents (Elt F))
    (x10 : (⟨S788, .f32⟩ : BufTy).Contents (Elt F))
    (h0 : W (Proc.devRef .tc main_arg0) = x0) (h38 : W (Proc.devRef .tc main_v38) = val_main_v38 (F := F) x0 x1 x2)
    (h3 : W (Proc.devRef .tc main_arg3) = x3) (h4 : W (Proc.devRef .tc main_arg4) = x4) (h5 : W (Proc.devRef .tc main_arg5) = x5)
    (h6 : W (Proc.devRef .tc main_arg6) = x6) (h7 : W (Proc.devRef .tc main_arg7) = x7) (h8 : W (Proc.devRef .tc main_arg8) = x8)
    (h9 : W (Proc.devRef .tc main_arg9) = x9) (h10 : W (Proc.devRef .tc main_arg10) = x10) :
    after opsBack W (Proc.devRef .tc main_v63) = val_main_v63 (F := F) x0 x1 x2 x3 x4 x5 x6 x7 x8 x9 x10 := by
  simp only [opsBack, ops, List.drop_succ_cons, List.drop_zero]
  after_results_simp
  rw [h0, h38, h3, h4, h5, h6, h7, h8, h9, h10]
  try simp only [TRef.ofBuf, TRef.toBuf, cast_eq]
  rfl

/-! ## The whole line -/

/-- After all 86 operations the embedding is its stage function of the launch contents of the features and the edge arrays. -/
theorem fold_v45 (V : Valuation τ sig (Elt F)) :
    after ops V (Proc.devRef .tc main_v45)
      = val_main_v45 (F := F) (V (Proc.devRef .tc main_arg0)) (V (Proc.devRef .tc main_arg1)) (V (Proc.devRef .tc main_arg2)) := by
  rw [ops_cut, StableHlo.after_append]
  exact back_v45 _ _ _ _ (front_arg0 V) (front_v38 V)

/-- The encoding likewise. -/
theorem fold_v54 (V : Valuation τ sig (Elt F)) :
    after ops V (Proc.devRef .tc main_v54)
      = val_main_v54 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  obtain ⟨w3, w4, w5, w6, -⟩ := front_weights V
  rw [ops_cut, StableHlo.after_append]
  exact back_v54 _ _ _ _ _ _ _ _ (front_arg0 V) (front_v38 V) w3 w4 w5 w6

/-- And the decoding. -/
theorem fold_v63 (V : Valuation τ sig (Elt F)) :
    after ops V (Proc.devRef .tc main_v63)
      = val_main_v63 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10)) := by
  obtain ⟨w3, w4, w5, w6, w7, w8, w9, w10⟩ := front_weights V
  rw [ops_cut, StableHlo.after_append]
  exact back_v63 _ _ _ _ _ _ _ _ _ _ _ _ (front_arg0 V) (front_v38 V) w3 w4 w5 w6 w7 w8 w9 w10

set_option maxHeartbeats 8000000 in
/-- On every device, from any memory with zero counters: every weakly fair execution of the reference terminates with the
    encoding, the decoding and the embedding at their stage functions of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54) = val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v45) = val_main_v45 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v54).trans (fold_v54 _),
      (h c main_v63).trans (fold_v63 _),
      (h c main_v45).trans (fold_v45 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.Hand

end
-- ==== Proof.RefLayer.lean ====
/-
  One layer and one relu as the reference prints them.

  The reference adds a bias `[M]` to a product `[n, M]` by broadcasting it twice, first to one row `[1, M]`, then over the rows;
  read at `(r, q)` the twice-broadcast bias is the bias at `q`. Its product is the host's dot_general at the plain dimension
  numbers, which is the matrix product (Proof/LibDense.lean). So a layer is `dense` with the bias read at the column, and the
  maximum with a broadcast zero scalar is `relu` (Proof/LibDense.lean).
-/
import proofs.«134367_j77421080477948_1_alg».proof.Proof.Payload
import Idealize.ShloMosaic.Lib.Pipeline.Value

noncomputable section

open scoped BigOperators

namespace Cert.Mlp

open Idealize.ShloMosaic Idealize.ShloMosaic.ValueIdx

/-- A bias `[M]` broadcast to one row and then over `n` rows, read at `(r, q)`: the bias at `q`. -/
theorem bias_bcast_apply {n M : Nat} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) (r : Fin n) (q : Fin M) :
    broadcastInDim ⟨2, ![n, M]⟩ ![0, 1] h2 (broadcastInDim ⟨2, ![1, M]⟩ ![1] h1 b) (ix2 r q) = b (ix1 q) := by
  have hq : q.val = if M = 1 then 0 else q.val := by
    split
    · have := q.isLt; omega
    · rfl
  rw [broadcastInDim_apply _ h2 _ (ix2 r q) (ix2 (0 : Fin 1) q) (fun a => by
    match a with
    | ⟨0, _⟩ => show 0 = if (1 : Nat) = 1 then 0 else r.val; rw [if_pos rfl]
    | ⟨1, _⟩ => exact hq)]
  exact broadcastInDim_apply _ h1 b (ix2 (0 : Fin 1) q) (ix1 q) (fun a => by
    match a with
    | ⟨0, _⟩ => exact hq)

/-- ONE LAYER as the reference prints it: the host's plain dot_general plus the twice-broadcast bias. -/
theorem ref_layer_eq {n K M : Nat} {φ₁ φ₂ : FTy} (d : DotDims ⟨2, ![n, K]⟩ ⟨2, ![K, M]⟩ ⟨2, ![n, M]⟩) (hd : d = DotDims.plain n K M)
    (X : FVec Ideal ⟨2, ![n, K]⟩ φ₁) (W : FVec Ideal ⟨2, ![K, M]⟩ φ₂) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) :
    addf (Host.dotGeneral d none X W) (broadcastInDim ⟨2, ![n, M]⟩ ![0, 1] h2 (broadcastInDim ⟨2, ![1, M]⟩ ![1] h1 b))
      = dense (X : Mat n K) (W : Mat K M) (fun k => b (ix1 k)) := by
  subst hd
  funext j
  obtain ⟨p, q, rfl⟩ := exists_ix2 j
  show FloatOps.dotGeneral (DotDims.plain n K M) none .single X W (ix2 p q)
      + broadcastInDim ⟨2, ![n, M]⟩ ![0, 1] h2 (broadcastInDim ⟨2, ![1, M]⟩ ![1] h1 b) (ix2 p q) = _
  rw [bias_bcast_apply, congrFun (dotGeneral_plain n K M none .single X W) (ix2 p q)]
  rfl

/-- The maximum with the zero scalar broadcast to the array is the relu. -/
theorem ref_relu_eq {n M : Nat} (Y : FVec Ideal ⟨2, ![n, M]⟩ .f32)
    (h : (⟨0, ![]⟩ : Shape).BroadcastsInDim ⟨2, ![n, M]⟩ (![] : Fin 0 → Fin 2)) :
    maximumf Y (broadcastInDim ⟨2, ![n, M]⟩ ![] h (constant ⟨0, ![]⟩ .f32 0x00000000#32)) = relu (Y : Mat n M) := by
  funext i
  show max (Y i) (Ideal.ofBits .f32 0x00000000#32) = max (Y i) 0
  rw [Ideal.ofBits_zero_f32]

end Cert.Mlp

end
-- ==== Proof.RefValue.lean ====
/-
  The reference's two computed results as the autoencoder of its embedding.

  Read one operation at a time, the reference's first result is the encoder of the stage `val_main_v45` (the embedding as a
  function of the features and the two edge arrays) over the weight and bias arguments, and its second the decoder after
  that encoder: each layer a host dot_general at the plain dimension numbers plus its bias broadcast twice, a relu after the
  first and the third (Proof/RefLayer.lean). The embedding's stage itself is never opened: the kernel's host program computes
  it by the same operations.
-/
import proofs.«134367_j77421080477948_1_alg».proof.Proof.RefRead
import proofs.«134367_j77421080477948_1_alg».proof.Proof.RefLayer

noncomputable section

namespace Cert.ReferenceIdeal.Hand

open Cert.ReferenceIdeal Cert.ReferenceIdeal.Gen Cert.ReferenceIdeal.ReadP Cert.Mlp
open Idealize.ShloMosaic Idealize.ShloMosaic.ValueIdx

/-- The reference's first result is the encoder of its embedding. -/
theorem enc_eq (x0 : FVec Ideal S50000x394 .f32) (x1 x2 : IVec S200000 32) (x3 : FVec Ideal S788x192 .f32) (x4 : FVec Ideal S192 .f32)
    (x5 : FVec Ideal S192x128 .f32) (x6 : FVec Ideal S128 .f32) :
    val_main_v54 (F := Ideal) x0 x1 x2 x3 x4 x5 x6
      = encode (val_main_v45 (F := Ideal) x0 x1 x2 : Mat 50000 788) (x3 : Mat 788 192) (fun k => x4 (ix1 k)) (x5 : Mat 192 128)
          (fun k => x6 (ix1 k)) := by
  unfold val_main_v54 val_main_v53 val_main_v52 val_main_v51 val_main_v50 val_main_call0_v0 val_main_call0_cst val_main_v49
    val_main_v48 val_main_v47 val_main_v46 encode
  rw [ref_layer_eq dot_S50000x788_S788x192_S50000x192_1_0_0_1_n_n rfl, ref_relu_eq,
    ref_layer_eq dot_S50000x192_S192x128_S50000x128_1_0_0_1_n_n rfl]

/-- The reference's second result is the decoder, after the encoder, of its embedding. -/
theorem dec_eq (x0 : FVec Ideal S50000x394 .f32) (x1 x2 : IVec S200000 32) (x3 : FVec Ideal S788x192 .f32) (x4 : FVec Ideal S192 .f32)
    (x5 : FVec Ideal S192x128 .f32) (x6 : FVec Ideal S128 .f32) (x7 : FVec Ideal S128x192 .f32) (x8 : FVec Ideal S192 .f32)
    (x9 : FVec Ideal S192x788 .f32) (x10 : FVec Ideal S788 .f32) :
    val_main_v63 (F := Ideal) x0 x1 x2 x3 x4 x5 x6 x7 x8 x9 x10
      = decode (val_main_v45 (F := Ideal) x0 x1 x2 : Mat 50000 788) (x3 : Mat 788 192) (fun k => x4 (ix1 k)) (x5 : Mat 192 128)
          (fun k => x6 (ix1 k)) (x7 : Mat 128 192) (fun k => x8 (ix1 k)) (x9 : Mat 192 788) (fun k => x10 (ix1 k)) := by
  unfold val_main_v63 val_main_v62 val_main_v61 val_main_v60 val_main_v59 val_main_call1_v0 val_main_call1_cst val_main_v58
    val_main_v57 val_main_v56 val_main_v55 decode
  rw [enc_eq, ref_layer_eq dot_S50000x128_S128x192_S50000x192_1_0_0_1_n_n rfl, ref_relu_eq,
    ref_layer_eq dot_S50000x192_S192x788_S50000x788_1_0_0_1_n_n rfl]

end Cert.ReferenceIdeal.Hand

end
-- ==== Proof.EmbBridge.lean ====
/-
  The embedding is one function of the features and the two edge arrays in both programs.

  The kernel's host program, before its region, and the reference compute the embedding by the same operations in the same
  order: the in-degree by a scatter-add of ones, its reciprocal with the degree clamped below by one, two rounds of gathering
  rows at the source indices and scatter-adding them at the destination indices, scaled by the reciprocal degree, the first
  column zeroed after each round, the concatenation with the features, and two more columns zeroed. So the array the region
  finds in its first operand is the reference's stage `val_main_v45` of the same three argument arrays. The kernel's host
  operations are read as the reference's are (Proof/RefRunHand.lean): cut before the concatenation, the first 53 over any
  contents, the rest over any contents that hold what the first 53 left; each half's term is then the reference's stage, the
  same operations applied to the same operands.
-/
import proofs.«134367_j77421080477948_1_alg».proof.Proof.Gen.KernelIdeal.Frame
import proofs.«134367_j77421080477948_1_alg».proof.Proof.RefRead
import proofs.«134367_j77421080477948_1_alg».proof.Proof.LibDense
import Idealize.ShloMosaic.Lib.Pipeline.Frame
import Idealize.ShloMosaic.Lib.StableHlo.Run

noncomputable section

namespace Cert.KernelIdeal.Hand

open Cert.KernelIdeal Cert.KernelIdeal.Gen Cert.Mlp Idealize.ShloMosaic Idealize.ShloMosaic.TcCoe Idealize.SL.Sem
open Idealize.ShloMosaic.StableHlo

variable {F : FTy → Type} [FloatOps F]

/-- The host operations before the concatenation … -/
abbrev hostFront : List (HloOp τ sig (Elt F)) := (hostOps0 (F := F)).take 53
/-- … and from it on. -/
abbrev hostBack : List (HloOp τ sig (Elt F)) := (hostOps0 (F := F)).drop 53

theorem host_cut : (hostOps0 (F := F)) = hostFront ++ hostBack := (List.take_append_drop 53 _).symm

set_option maxRecDepth 16384 in
set_option maxHeartbeats 4000000 in
/-- The first 53 leave the second-hop mean at the reference's stage function of the features and the two edge arrays. -/
theorem kfront_v38 (V : Valuation τ sig (Elt F)) :
    after hostFront V (Proc.devRef .tc main_v38)
      = Cert.ReferenceIdeal.ReadP.val_main_v38 (F := F) (V (Proc.devRef .tc main_arg0)) (V (Proc.devRef .tc main_arg1))
          (V (Proc.devRef .tc main_arg2)) := by
  simp only [hostFront, hostOps0, List.take_succ_cons, List.take_zero]
  after_results_simp
  rfl

set_option maxHeartbeats 4000000 in
/-- They do not write the features. -/
theorem kfront_arg0 (V : Valuation τ sig (Elt F)) : after hostFront V (Proc.devRef .tc main_arg0) = V (Proc.devRef .tc main_arg0) := by
  simp only [hostFront, hostOps0, List.take_succ_cons, List.take_zero]
  after_results_simp

set_option maxRecDepth 16384 in
set_option maxHeartbeats 4000000 in
/-- The rest, over any contents that hold those two, leave the embedding at the reference's stage function. -/
theorem kback_v45 (W : Valuation τ sig (Elt F)) (x0 : (⟨S50000x394, .f32⟩ : BufTy).Contents (Elt F))
    (x1 x2 : (⟨S200000, .i32⟩ : BufTy).Contents (Elt F))
    (h0 : W (Proc.devRef .tc main_arg0) = x0)
    (h38 : W (Proc.devRef .tc main_v38) = Cert.ReferenceIdeal.ReadP.val_main_v38 (F := F) x0 x1 x2) :
    after hostBack W (Proc.devRef .tc main_v45) = Cert.ReferenceIdeal.ReadP.val_main_v45 (F := F) x0 x1 x2 := by
  simp only [hostBack, hostOps0, List.drop_succ_cons, List.drop_zero]
  after_results_simp
  rw [h0, h38]
  rfl

/-- The embedding as the region finds it is the reference's stage of the same three argument arrays. -/
theorem V_emb (m : (ℓ : Loc nD τ sig) → Buf (Elt F) ℓ) (c : Dev nD) :
    V m c main_v45 = Cert.ReferenceIdeal.ReadP.val_main_v45 (F := F) (m ((c : Thread nD τ).loc main_arg0))
      (m ((c : Thread nD τ).loc main_arg1)) (m ((c : Thread nD τ).loc main_arg2)) := by
  show after hostOps0 (fun b => m (c, b)) (Proc.devRef .tc main_v45) = _
  rw [host_cut, StableHlo.after_append]
  exact kback_v45 _ _ _ _ (kfront_arg0 _) (kfront_v38 _)

end Cert.KernelIdeal.Hand

end
-- ==== Proof.lean ====
/-
  A graph autoencoder: a Pallas kernel for the dense part against its jnp reference, equal over the extended reals.

  Both programs take node features `[50000, 394]`, 200000 edges as source and destination indices, and the weights and biases of
  a four-layer autoencoder, and return the encoding `[50000, 128]`, the decoding `[50000, 788]` and the embedding `[50000, 788]`.
  The embedding — two rounds of mean aggregation over incoming edges, concatenated with the features, three columns zeroed — is
  computed on the host by the same operations in both (Proof/EmbBridge.lean, Proof/RefRunHand.lean). The reference then applies the autoencoder to the
  whole embedding with four host matrix products; the kernel applies it to blocks of 1000 rows, one per grid point, with the
  vector unit's matmul, its operands narrowed to a shorter float format first — the identity on extended reals.
  Entry `(r, q)` of a layer `X · W + β` is the sum over `k` of `X (r, k) · W (k, q)`, plus `β q`: a function of row `r` of `X`
  alone. So the kernel's block at point `t` holds rows `1000 t … 1000 t + 999` of the reference's result (Proof/LibDense.lean,
  Proof/Payload.lean, Proof/KernelBlocks.lean), the 50 blocks cover the arrays, and the results are equal. The two sides are the
  same sums of the same products in the same index sets: no law of arithmetic that could fail at an infinity is used, and the
  precondition (finite inputs) is not opened by the value claim.
  `preserves`: the idealization rewrote nothing, and the conjunct is `True`.
-/
import proofs.«134367_j77421080477948_1_alg».proof.Defs
import proofs.«134367_j77421080477948_1_alg».proof.Proof.Gen.Kernel
import proofs.«134367_j77421080477948_1_alg».proof.Proof.Gen.Kernel.Skeleton
import proofs.«134367_j77421080477948_1_alg».proof.Proof.Gen.Kernel.Launch
import proofs.«134367_j77421080477948_1_alg».proof.Proof.Gen.Kernel.Points
import proofs.«134367_j77421080477948_1_alg».proof.Proof.Gen.Kernel.Frame
import proofs.«134367_j77421080477948_1_alg».proof.Proof.Gen.KernelIdeal
import proofs.«134367_j77421080477948_1_alg».proof.Proof.Gen.KernelIdeal.Skeleton
import proofs.«134367_j77421080477948_1_alg».proof.Proof.Gen.KernelIdeal.Launch
import proofs.«134367_j77421080477948_1_alg».proof.Proof.Gen.KernelIdeal.Points
import proofs.«134367_j77421080477948_1_alg».proof.Proof.Gen.KernelIdeal.Frame
import proofs.«134367_j77421080477948_1_alg».proof.Proof.Gen.ReferenceIdeal
import proofs.«134367_j77421080477948_1_alg».proof.Proof.Gen.Pre_finite_inputs
import proofs.«134367_j77421080477948_1_alg».proof.Proof.Gen.KernelIdeal.Value
import proofs.«134367_j77421080477948_1_alg».proof.Proof.KernelHost
import proofs.«134367_j77421080477948_1_alg».proof.Proof.KernelBlocks
import proofs.«134367_j77421080477948_1_alg».proof.Proof.RefRunHand
import proofs.«134367_j77421080477948_1_alg».proof.Proof.RefValue
import proofs.«134367_j77421080477948_1_alg».proof.Proof.EmbBridge
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the three results dropped. -/
theorem frame_referenceIdeal : Cert.frame_ReferenceIdeal := fun m ρ _ =>
  (θ_run Cert.ReferenceIdeal.defs _ _).mono (fun _ h c => (h c).2.2.2) (Cert.ReferenceIdeal.Hand.run (F := Ideal) m ρ)

/-- From memories that agree on the arguments, the kernel's three result arrays are the reference's: the encoder and the decoder
    of one embedding over the same weights and biases, and that embedding. -/
theorem algebraic : Cert.algebraic_KernelIdeal_ReferenceIdeal := by
  intro m ρ m' ρ' _ hagree
  refine ⟨fun c => Cert.KernelIdeal.Hand.encV m c, fun c => Cert.KernelIdeal.Hand.decV m c,
    fun c => Cert.KernelIdeal.Gen.V m c Cert.KernelIdeal.main_v45, Cert.KernelIdeal.Hand.run m ρ, ?_⟩
  refine (θ_run Cert.ReferenceIdeal.defs _ _).mono (fun _ h c => ?_) (Cert.ReferenceIdeal.Hand.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2⟩
  · rw [a0, a1, a2, a3, a4, a5, a6, Cert.ReferenceIdeal.Hand.enc_eq]
    show _ = Cert.KernelIdeal.Hand.encV m c
    unfold Cert.KernelIdeal.Hand.encV
    rw [Cert.KernelIdeal.Hand.V_emb, Cert.KernelIdeal.Hand.V_w1, Cert.KernelIdeal.Hand.V_b1, Cert.KernelIdeal.Hand.V_w3,
      Cert.KernelIdeal.Hand.V_b3]
  · rw [a0, a1, a2, a3, a4, a5, a6, a7, a8, a9, a10, Cert.ReferenceIdeal.Hand.dec_eq]
    show _ = Cert.KernelIdeal.Hand.decV m c
    unfold Cert.KernelIdeal.Hand.decV
    rw [Cert.KernelIdeal.Hand.V_emb, Cert.KernelIdeal.Hand.V_w1, Cert.KernelIdeal.Hand.V_b1, Cert.KernelIdeal.Hand.V_w3,
      Cert.KernelIdeal.Hand.V_b3, Cert.KernelIdeal.Hand.V_w5, Cert.KernelIdeal.Hand.V_b5, Cert.KernelIdeal.Hand.V_w7,
      Cert.KernelIdeal.Hand.V_b7]
  · rw [a0, a1, a2]
    exact (Cert.KernelIdeal.Hand.V_emb m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
